-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x128x4 : Shape := ⟨3, ![32, 128, 4]⟩
abbrev S32x128x2x4 : Shape := ⟨4, ![32, 128, 2, 4]⟩
abbrev S18x768 : Shape := ⟨2, ![18, 768]⟩
abbrev S18 : Shape := ⟨1, ![18]⟩
abbrev S14x1536 : Shape := ⟨2, ![14, 1536]⟩
abbrev S14 : Shape := ⟨1, ![14]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S18x768 : S_.BroadcastsInDim S18x768 (![] : Fin 0 → Fin S18x768.rank)
  reducesTo_S18x768_S_d0_1 : S18x768.ReducesTo [0, 1] S_
  bcast_S_S18 : S_.BroadcastsInDim S18 (![] : Fin 0 → Fin S18.rank)
  reducesTo_S18_S_d0 : S18.ReducesTo [0] S_
  bcast_S_S14x1536 : S_.BroadcastsInDim S14x1536 (![] : Fin 0 → Fin S14x1536.rank)
  reducesTo_S14x1536_S_d0_1 : S14x1536.ReducesTo [0, 1] S_
  bcast_S_S14 : S_.BroadcastsInDim S14 (![] : Fin 0 → Fin S14.rank)
  reducesTo_S14_S_d0 : S14.ReducesTo [0] S_
  bcast_S_S32x128x4 : S_.BroadcastsInDim S32x128x4 (![] : Fin 0 → Fin S32x128x4.rank)
  reducesTo_S32x128x4_S_d0_1_2 : S32x128x4.ReducesTo [0, 1, 2] S_
  bcast_S_S32x128x2x4 : S_.BroadcastsInDim S32x128x2x4 (![] : Fin 0 → Fin S32x128x2x4.rank)
  reducesTo_S32x128x2x4_S_d0_1_2_3 : S32x128x2x4.ReducesTo [0, 1, 2, 3] S_

variable [Facts]

def fn_part3 {F : FTy → Type} [FloatOps F] (main_v44 : IVec S_ 1) (main_v49 : IVec S32x128x2x4 1) (main_c_19 : IVec S_ 1) : IVec S_ 1 :=
  let main_v50 : IVec S_ 1 := (fun x v => Host.reduce IntOp.andi x v reducesTo_S32x128x2x4_S_d0_1_2_3 h_S_) main_v49 main_c_19
  let main_v51 : IVec S_ 1 := andi main_v44 main_v50
  main_v51

def fn_part2 {F : FTy → Type} [FloatOps F] (main_arg2 : IVec S32x128x4 32) (main_arg3 : IVec S32x128x2x4 32) (main_arg4 : IVec S32x128x2x4 32) (main_v30 : IVec S_ 1) (main_v32 : IVec S32x128x2x4 1) (main_c_12 : IVec S_ 32) : IVec S_ 1 :=
  let main_v33 : IVec S32x128x2x4 32 := broadcastInDim S32x128x2x4 ![] bcast_S_S32x128x2x4 main_c_12
  let main_v34 : IVec S32x128x2x4 1 := cmpi .slt main_arg3 main_v33
  let main_v35 : IVec S32x128x2x4 1 := andi main_v32 main_v34
  let main_c_13 : IVec S_ 1 := constantI S_ 1 1#1
  let main_v36 : IVec S_ 1 := (fun x v => Host.reduce IntOp.andi x v reducesTo_S32x128x2x4_S_d0_1_2_3 h_S_) main_v35 main_c_13
  let main_v37 : IVec S_ 1 := andi main_v30 main_v36
  let main_c_14 : IVec S_ 32 := constantI S_ 32 0#32
  let main_v38 : IVec S32x128x4 32 := broadcastInDim S32x128x4 ![] bcast_S_S32x128x4 main_c_14
  let main_v39 : IVec S32x128x4 1 := cmpi .sge main_arg2 main_v38
  let main_c_15 : IVec S_ 32 := constantI S_ 32 1#32
  let main_v40 : IVec S32x128x4 32 := broadcastInDim S32x128x4 ![] bcast_S_S32x128x4 main_c_15
  let main_v41 : IVec S32x128x4 1 := cmpi .sle main_arg2 main_v40
  let main_v42 : IVec S32x128x4 1 := andi main_v39 main_v41
  let main_c_16 : IVec S_ 1 := constantI S_ 1 1#1
  let main_v43 : IVec S_ 1 := (fun x v => Host.reduce IntOp.andi x v reducesTo_S32x128x4_S_d0_1_2 h_S_) main_v42 main_c_16
  let main_v44 : IVec S_ 1 := andi main_v37 main_v43
  let main_c_17 : IVec S_ 32 := constantI S_ 32 0#32
  let main_v45 : IVec S32x128x2x4 32 := broadcastInDim S32x128x2x4 ![] bcast_S_S32x128x2x4 main_c_17
  let main_v46 : IVec S32x128x2x4 1 := cmpi .sge main_arg4 main_v45
  let main_c_18 : IVec S_ 32 := constantI S_ 32 1#32
  let main_v47 : IVec S32x128x2x4 32 := broadcastInDim S32x128x2x4 ![] bcast_S_S32x128x2x4 main_c_18
  let main_v48 : IVec S32x128x2x4 1 := cmpi .sle main_arg4 main_v47
  let main_v49 : IVec S32x128x2x4 1 := andi main_v46 main_v48
  let main_c_19 : IVec S_ 1 := constantI S_ 1 1#1
  fn_part3 (F := F) main_v44 main_v49 main_c_19

def fn_part1 {F : FTy → Type} [FloatOps F] (main_arg1 : IVec S32x128x4 32) (main_arg2 : IVec S32x128x4 32) (main_arg3 : IVec S32x128x2x4 32) (main_arg4 : IVec S32x128x2x4 32) (main_arg8 : FVec F S14 .f32) (main_v13 : IVec S_ 1) (main_v16 : IVec S14x1536 1) : IVec S_ 1 :=
  let main_c_5 : IVec S_ 1 := constantI S_ 1 1#1
  let main_v17 : IVec S_ 1 := (fun x v => Host.reduce IntOp.andi x v reducesTo_S14x1536_S_d0_1 h_S_) main_v16 main_c_5
  let main_v18 : IVec S_ 1 := andi main_v13 main_v17
  let main_v19 : FVec F S14 .f32 := Host.absf main_arg8
  let main_cst_6 : FVec F S_ .f32 := constant S_ .f32 0x7F800000#32
  let main_v20 : FVec F S14 .f32 := broadcastInDim S14 ![] bcast_S_S14 main_cst_6
  let main_v21 : IVec S14 1 := cmpf .olt main_v19 main_v20
  let main_c_7 : IVec S_ 1 := constantI S_ 1 1#1
  let main_v22 : IVec S_ 1 := (fun x v => Host.reduce IntOp.andi x v reducesTo_S14_S_d0 h_S_) main_v21 main_c_7
  let main_v23 : IVec S_ 1 := andi main_v18 main_v22
  let main_c_8 : IVec S_ 32 := constantI S_ 32 0#32
  let main_v24 : IVec S32x128x4 32 := broadcastInDim S32x128x4 ![] bcast_S_S32x128x4 main_c_8
  let main_v25 : IVec S32x128x4 1 := cmpi .sge main_arg1 main_v24
  let main_c_9 : IVec S_ 32 := constantI S_ 32 512#32
  let main_v26 : IVec S32x128x4 32 := broadcastInDim S32x128x4 ![] bcast_S_S32x128x4 main_c_9
  let main_v27 : IVec S32x128x4 1 := cmpi .slt main_arg1 main_v26
  let main_v28 : IVec S32x128x4 1 := andi main_v25 main_v27
  let main_c_10 : IVec S_ 1 := constantI S_ 1 1#1
  let main_v29 : IVec S_ 1 := (fun x v => Host.reduce IntOp.andi x v reducesTo_S32x128x4_S_d0_1_2 h_S_) main_v28 main_c_10
  let main_v30 : IVec S_ 1 := andi main_v23 main_v29
  let main_c_11 : IVec S_ 32 := constantI S_ 32 0#32
  let main_v31 : IVec S32x128x2x4 32 := broadcastInDim S32x128x2x4 ![] bcast_S_S32x128x2x4 main_c_11
  let main_v32 : IVec S32x128x2x4 1 := cmpi .sge main_arg3 main_v31
  let main_c_12 : IVec S_ 32 := constantI S_ 32 512#32
  fn_part2 (F := F) main_arg2 main_arg3 main_arg4 main_v30 main_v32 main_c_12

def fn {F : FTy → Type} [FloatOps F] (main_arg0 : FVec F S32x512x768 .f32) (main_arg1 : IVec S32x128x4 32) (main_arg2 : IVec S32x128x4 32) (main_arg3 : IVec S32x128x2x4 32) (main_arg4 : IVec S32x128x2x4 32) (main_arg5 : FVec F S18x768 .f32) (main_arg6 : FVec F S18 .f32) (main_arg7 : FVec F S14x1536 .f32) (main_arg8 : FVec F S14 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S18x768 .f32 := Host.absf main_arg5
  let main_cst_0 : FVec F S_ .f32 := constant S_ .f32 0x7F800000#32
  let main_v5 : FVec F S18x768 .f32 := broadcastInDim S18x768 ![] bcast_S_S18x768 main_cst_0
  let main_v6 : IVec S18x768 1 := cmpf .olt main_v4 main_v5
  let main_c_1 : IVec S_ 1 := constantI S_ 1 1#1
  let main_v7 : IVec S_ 1 := (fun x v => Host.reduce IntOp.andi x v reducesTo_S18x768_S_d0_1 h_S_) main_v6 main_c_1
  let main_v8 : IVec S_ 1 := andi main_v3 main_v7
  let main_v9 : FVec F S18 .f32 := Host.absf main_arg6
  let main_cst_2 : FVec F S_ .f32 := constant S_ .f32 0x7F800000#32
  let main_v10 : FVec F S18 .f32 := broadcastInDim S18 ![] bcast_S_S18 main_cst_2
  let main_v11 : IVec S18 1 := cmpf .olt main_v9 main_v10
  let main_c_3 : IVec S_ 1 := constantI S_ 1 1#1
  let main_v12 : IVec S_ 1 := (fun x v => Host.reduce IntOp.andi x v reducesTo_S18_S_d0 h_S_) main_v11 main_c_3
  let main_v13 : IVec S_ 1 := andi main_v8 main_v12
  let main_v14 : FVec F S14x1536 .f32 := Host.absf main_arg7
  let main_cst_4 : FVec F S_ .f32 := constant S_ .f32 0x7F800000#32
  let main_v15 : FVec F S14x1536 .f32 := broadcastInDim S14x1536 ![] bcast_S_S14x1536 main_cst_4
  let main_v16 : IVec S14x1536 1 := cmpf .olt main_v14 main_v15
  fn_part1 (F := F) main_arg1 main_arg2 main_arg3 main_arg4 main_arg8 main_v13 main_v16
-- ==== Kernel.lean ====
abbrev S32x512x768 : Shape := ⟨3, ![32, 512, 768]⟩
abbrev S32x128x4 : Shape := ⟨3, ![32, 128, 4]⟩
abbrev S32x128x2x4 : Shape := ⟨4, ![32, 128, 2, 4]⟩
abbrev S18x768 : Shape := ⟨2, ![18, 768]⟩
abbrev S18 : Shape := ⟨1, ![18]⟩
abbrev S14x1536 : Shape := ⟨2, ![14, 1536]⟩
abbrev S14 : Shape := ⟨1, ![14]⟩
abbrev S1x18 : Shape := ⟨2, ![1, 18]⟩
abbrev S1x14 : Shape := ⟨2, ![1, 14]⟩
abbrev S32x128x18 : Shape := ⟨3, ![32, 128, 18]⟩
abbrev S32x128x14 : Shape := ⟨3, ![32, 128, 14]⟩
abbrev S1x512x768 : Shape := ⟨3, ![1, 512, 768]⟩
abbrev S1x128x4 : Shape := ⟨3, ![1, 128, 4]⟩
abbrev S1x128x2x4 : Shape := ⟨4, ![1, 128, 2, 4]⟩
abbrev S1x128x18 : Shape := ⟨3, ![1, 128, 18]⟩
abbrev S1x128x14 : Shape := ⟨3, ![1, 128, 14]⟩
abbrev S512x768 : Shape := ⟨2, ![512, 768]⟩
abbrev S128x4 : Shape := ⟨2, ![128, 4]⟩
abbrev S128x512 : Shape := ⟨2, ![128, 512]⟩
abbrev S128x1 : Shape := ⟨2, ![128, 1]⟩
abbrev S128x768 : Shape := ⟨2, ![128, 768]⟩
abbrev S128x2x4 : Shape := ⟨3, ![128, 2, 4]⟩
abbrev S128x1x4 : Shape := ⟨3, ![128, 1, 4]⟩
abbrev S128x1536 : Shape := ⟨2, ![128, 1536]⟩
abbrev S128x18 : Shape := ⟨2, ![128, 18]⟩
abbrev S128x14 : Shape := ⟨2, ![128, 14]⟩

abbrev nBuf : Space → Nat
  | .hbm => 13
  | .vmem => 18
  | .smem => 0
  | _ => 0

abbrev bufTy : (tb : Table) → Fin (tcTables nBuf tb) → BufTy
  | .hbm, ⟨0, _⟩ => ⟨S32x512x768, .f32⟩
  | .hbm, ⟨1, _⟩ => ⟨S32x128x4, .i32⟩
  | .hbm, ⟨2, _⟩ => ⟨S32x128x4, .i32⟩
  | .hbm, ⟨3, _⟩ => ⟨S32x128x2x4, .i32⟩
  | .hbm, ⟨4, _⟩ => ⟨S32x128x2x4, .i32⟩
  | .hbm, ⟨5, _⟩ => ⟨S18x768, .f32⟩
  | .hbm, ⟨6, _⟩ => ⟨S18, .f32⟩
  | .hbm, ⟨7, _⟩ => ⟨S14x1536, .f32⟩
  | .hbm, ⟨8, _⟩ => ⟨S14, .f32⟩
  | .hbm, ⟨9, _⟩ => ⟨S1x18, .f32⟩
  | .hbm, ⟨10, _⟩ => ⟨S1x14, .f32⟩
  | .hbm, ⟨11, _⟩ => ⟨S32x128x18, .f32⟩
  | .hbm, ⟨12, _⟩ => ⟨S32x128x14, .f32⟩
  | .local _ .vmem, ⟨0, _⟩ => ⟨S1x512x768, .f32⟩
  | .local _ .vmem, ⟨1, _⟩ => ⟨S1x512x768, .f32⟩
  | .local _ .vmem, ⟨2, _⟩ => ⟨S1x128x4, .i32⟩
  | .local _ .vmem, ⟨3, _⟩ => ⟨S1x128x4, .i32⟩
  | .local _ .vmem, ⟨4, _⟩ => ⟨S1x128x4, .i32⟩
  | .local _ .vmem, ⟨5, _⟩ => ⟨S1x128x4, .i32⟩
  | .local _ .vmem, ⟨6, _⟩ => ⟨S1x128x2x4, .i32⟩
  | .local _ .vmem, ⟨7, _⟩ => ⟨S1x128x2x4, .i32⟩
  | .local _ .vmem, ⟨8, _⟩ => ⟨S1x128x2x4, .i32⟩
  | .local _ .vmem, ⟨9, _⟩ => ⟨S1x128x2x4, .i32⟩
  | .local _ .vmem, ⟨10, _⟩ => ⟨S18x768, .f32⟩
  | .local _ .vmem, ⟨11, _⟩ => ⟨S1x18, .f32⟩
  | .local _ .vmem, ⟨12, _⟩ => ⟨S14x1536, .f32⟩
  | .local _ .vmem, ⟨13, _⟩ => ⟨S1x14, .f32⟩
  | .local _ .vmem, ⟨14, _⟩ => ⟨S1x128x18, .f32⟩
  | .local _ .vmem, ⟨15, _⟩ => ⟨S1x128x18, .f32⟩
  | .local _ .vmem, ⟨16, _⟩ => ⟨S1x128x14, .f32⟩
  | .local _ .vmem, ⟨17, _⟩ => ⟨S1x128x14, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S18x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S14x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x14 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x18 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x14 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S18_S1x18 : S18.ShapeCasts S1x18
  shapeCasts_S14_S1x14 : S14.ShapeCasts S1x14
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  iota_S128x512_d1_w32 : S128x512.Iotas .tc 32 [1]
  slices_S128x4_o0_0_S128x1 : S128x4.Slices ![0, 0] S128x1
  broadcasts_S128x1_S128x512 : S128x1.Broadcasts S128x512
  natLt_1_32 : 1 < 32
  slices_S128x4_o0_1_S128x1 : S128x4.Slices ![0, 1] S128x1
  slices_S128x4_o0_2_S128x1 : S128x4.Slices ![0, 2] S128x1
  slices_S128x4_o0_3_S128x1 : S128x4.Slices ![0, 3] S128x1
  inb_S1x128x2x4_S1x128x2x4_0_0_0_0 : ∀ a, (![0, 0, 0, 0] : Fin 4 → Nat) a + S1x128x2x4.size a ≤ S1x128x2x4.size a
  h_S1x128x2x4 : 0 < S1x128x2x4.numel
  shapeCasts_S1x128x2x4_S128x2x4 : S1x128x2x4.ShapeCasts S128x2x4
  slices_S128x2x4_o0_0_0_S128x1x4 : S128x2x4.Slices ![0, 0, 0] S128x1x4
  shapeCasts_S128x1x4_S128x4 : S128x1x4.ShapeCasts S128x4
  slices_S128x2x4_o0_1_0_S128x1x4 : S128x2x4.Slices ![0, 1, 0] S128x1x4
  concatenates_S128x768_S128x768_S128x1536_d1 : Shape.Concatenates [S128x768, S128x768] S128x1536 1
  inb_S18x768_S18x768_0_0 : ∀ a, (![0, 0] : Fin 2 → Nat) a + S18x768.size a ≤ S18x768.size a
  h_S18x768 : 0 < S18x768.numel
  inb_S14x1536_S14x1536_0_0 : ∀ a, (![0, 0] : Fin 2 → Nat) a + S14x1536.size a ≤ S14x1536.size a
  h_S14x1536 : 0 < S14x1536.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x18_S128x18 : S1x18.Broadcasts S128x18
  broadcasts_S1x14_S128x14 : S1x14.Broadcasts S128x14
  inb_S1x128x18_S1x128x18_0_0_0 : ∀ a, (![0, 0, 0] : Fin 3 → Nat) a + S1x128x18.size a ≤ S1x128x18.size a
  h_S1x128x18 : 0 < S1x128x18.numel
  shapeCasts_S1x128x18_S128x18 : S1x128x18.ShapeCasts S128x18
  shapeCasts_S128x18_S1x128x18 : S128x18.ShapeCasts S1x128x18
  inb_S1x128x14_S1x128x14_0_0_0 : ∀ a, (![0, 0, 0] : Fin 3 → Nat) a + S1x128x14.size a ≤ S1x128x14.size a
  h_S1x128x14 : 0 < S1x128x14.numel
  shapeCasts_S1x128x14_S128x14 : S1x128x14.ShapeCasts S128x14
  shapeCasts_S128x14_S1x128x14 : S128x14.ShapeCasts S1x128x14
  dot_S128x512_S512x768_S128x768_1_0_0_1_n_n_wf : DotDims.WF S128x512 S512x768 S128x768 [1] [0] [0] [1] [] []
  dot_S128x768_S18x768_S128x18_1_1_0_0_n_n_wf : DotDims.WF S128x768 S18x768 S128x18 [1] [1] [0] [0] [] []
  dot_S128x1536_S14x1536_S128x14_1_1_0_0_n_n_wf : DotDims.WF S128x1536 S14x1536 S128x14 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x512x768.size a
  hwx0_0 : ∀ i : grid0.Coords, EltTy.bits .f32 = 32 ∨ (Rect.block (s := S32x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4.size a ≤ S32x128x4.size a
  hwx0_1 : ∀ i : grid0.Coords, EltTy.bits .i32 = 32 ∨ (Rect.block (s := S32x128x4) S1x128x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4.size a ≤ S32x128x4.size a
  hwx0_2 : ∀ i : grid0.Coords, EltTy.bits .i32 = 32 ∨ (Rect.block (s := S32x128x4) S1x128x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2x4.size a ≤ S32x128x2x4.size a
  hwx0_3 : ∀ i : grid0.Coords, EltTy.bits .i32 = 32 ∨ (Rect.block (s := S32x128x2x4) S1x128x2x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2x4.size a ≤ S32x128x2x4.size a
  hwx0_4 : ∀ i : grid0.Coords, EltTy.bits .i32 = 32 ∨ (Rect.block (s := S32x128x2x4) S1x128x2x4.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S18x768.size a ≤ S18x768.size a
  hwx0_5 : ∀ i : grid0.Coords, EltTy.bits .f32 = 32 ∨ (Rect.block (s := S18x768) S18x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x18.size a ≤ S1x18.size a
  hwx0_6 : ∀ i : grid0.Coords, EltTy.bits .f32 = 32 ∨ (Rect.block (s := S1x18) S1x18.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S14x1536.size a ≤ S14x1536.size a
  hwx0_7 : ∀ i : grid0.Coords, EltTy.bits .f32 = 32 ∨ (Rect.block (s := S14x1536) S14x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x14.size a ≤ S1x14.size a
  hwx0_8 : ∀ i : grid0.Coords, EltTy.bits .f32 = 32 ∨ (Rect.block (s := S1x14) S1x14.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x18.size a ≤ S32x128x18.size a
  hwx0_9 : ∀ i : grid0.Coords, EltTy.bits .f32 = 32 ∨ (Rect.block (s := S32x128x18) S1x128x18.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x14.size a ≤ S32x128x14.size a
  hwx0_10 : ∀ i : grid0.Coords, EltTy.bits .f32 = 32 ∨ (Rect.block (s := S32x128x14) S1x128x14.size (cc0_transform_10 i) (hinb0_10 i)).WholeWords (EltTy.packing .f32)

variable [Facts₀]

def dot_S128x512_S512x768_S128x768_1_0_0_1_n_n : DotDims S128x512 S512x768 S128x768 where
  lhsContracting := [1]
  rhsContracting := [0]
  lhsNonContracting := [0]
  rhsNonContracting := [1]
  lhsBatch := []
  rhsBatch := []
  wf := dot_S128x512_S512x768_S128x768_1_0_0_1_n_n_wf
def dot_S128x768_S18x768_S128x18_1_1_0_0_n_n : DotDims S128x768 S18x768 S128x18 where
  lhsContracting := [1]
  rhsContracting := [1]
  lhsNonContracting := [0]
  rhsNonContracting := [0]
  lhsBatch := []
  rhsBatch := []
  wf := dot_S128x768_S18x768_S128x18_1_1_0_0_n_n_wf
def dot_S128x1536_S14x1536_S128x14_1_1_0_0_n_n : DotDims S128x1536 S14x1536 S128x14 where
  lhsContracting := [1]
  rhsContracting := [1]
  lhsNonContracting := [0]
  rhsNonContracting := [0]
  lhsBatch := []
  rhsBatch := []
  wf := dot_S128x1536_S14x1536_S128x14_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x2x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128x2x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S18x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x18.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S14x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x14.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1x128x18.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1x128x14.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x128x4 : Shape := ⟨3, ![32, 128, 4]⟩
abbrev S32x128x2x4 : Shape := ⟨4, ![32, 128, 2, 4]⟩
abbrev S18x768 : Shape := ⟨2, ![18, 768]⟩
abbrev S18 : Shape := ⟨1, ![18]⟩
abbrev S14x1536 : Shape := ⟨2, ![14, 1536]⟩
abbrev S14 : Shape := ⟨1, ![14]⟩
abbrev S32x512 : Shape := ⟨2, ![32, 512]⟩
abbrev S32x512x1 : Shape := ⟨3, ![32, 512, 1]⟩
abbrev S_ : Shape := ⟨0, ![]⟩
abbrev S1 : Shape := ⟨1, ![1]⟩
abbrev S1x1x1 : Shape := ⟨3, ![1, 1, 1]⟩
abbrev S32x128x4x768 : Shape := ⟨4, ![32, 128, 4, 768]⟩
abbrev S32x128x4x1 : Shape := ⟨4, ![32, 128, 4, 1]⟩
abbrev S32x128 : Shape := ⟨2, ![32, 128]⟩
abbrev S32x128x1 : Shape := ⟨3, ![32, 128, 1]⟩
abbrev S32x128x768 : Shape := ⟨3, ![32, 128, 768]⟩
abbrev S32x1024 : Shape := ⟨2, ![32, 1024]⟩
abbrev S32x1024x1 : Shape := ⟨3, ![32, 1024, 1]⟩
abbrev S32x1024x768 : Shape := ⟨3, ![32, 1024, 768]⟩
abbrev S32x128x2x4x768 : Shape := ⟨5, ![32, 128, 2, 4, 768]⟩
abbrev S32x128x2x4x1 : Shape := ⟨5, ![32, 128, 2, 4, 1]⟩
abbrev S32x128x2 : Shape := ⟨3, ![32, 128, 2]⟩
abbrev S32x128x2x1 : Shape := ⟨4, ![32, 128, 2, 1]⟩
abbrev S32x128x2x768 : Shape := ⟨4, ![32, 128, 2, 768]⟩
abbrev S32x128x1536 : Shape := ⟨3, ![32, 128, 1536]⟩
abbrev S32x128x18 : Shape := ⟨3, ![32, 128, 18]⟩
abbrev S1x1x18 : Shape := ⟨3, ![1, 1, 18]⟩
abbrev S32x128x14 : Shape := ⟨3, ![32, 128, 14]⟩
abbrev S1x1x14 : Shape := ⟨3, ![1, 1, 14]⟩

abbrev nBuf : Space → Nat
  | .hbm => 106
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x128x4, .i32⟩
  | .hbm, ⟨2, _⟩ => ⟨S32x128x4, .i32⟩
  | .hbm, ⟨3, _⟩ => ⟨S32x128x2x4, .i32⟩
  | .hbm, ⟨4, _⟩ => ⟨S32x128x2x4, .i32⟩
  | .hbm, ⟨5, _⟩ => ⟨S18x768, .f32⟩
  | .hbm, ⟨6, _⟩ => ⟨S18, .f32⟩
  | .hbm, ⟨7, _⟩ => ⟨S14x1536, .f32⟩
  | .hbm, ⟨8, _⟩ => ⟨S14, .f32⟩
  | .hbm, ⟨9, _⟩ => ⟨S32x512, .i32⟩
  | .hbm, ⟨10, _⟩ => ⟨S32x512x1, .i32⟩
  | .hbm, ⟨11, _⟩ => ⟨S_, .i32⟩
  | .hbm, ⟨12, _⟩ => ⟨S32x512x1, .i32⟩
  | .hbm, ⟨13, _⟩ => ⟨S32x512x1, .i1⟩
  | .hbm, ⟨14, _⟩ => ⟨S_, .i32⟩
  | .hbm, ⟨15, _⟩ => ⟨S32x512x1, .i32⟩
  | .hbm, ⟨16, _⟩ => ⟨S32x512x1, .i32⟩
  | .hbm, ⟨17, _⟩ => ⟨S32x512x1, .i32⟩
  | .hbm, ⟨18, _⟩ => ⟨S1, .i32⟩
  | .hbm, ⟨19, _⟩ => ⟨S_, .i32⟩
  | .hbm, ⟨20, _⟩ => ⟨S32x512x1, .i32⟩
  | .hbm, ⟨21, _⟩ => ⟨S32x512x1, .i1⟩
  | .hbm, ⟨22, _⟩ => ⟨S1x1x1, .i32⟩
  | .hbm, ⟨23, _⟩ => ⟨S32x512x1, .i32⟩
  | .hbm, ⟨24, _⟩ => ⟨S32x512x1, .i1⟩
  | .hbm, ⟨25, _⟩ => ⟨S32x512x1, .i1⟩
  | .hbm, ⟨26, _⟩ => ⟨S_, .i1⟩
  | .hbm, ⟨27, _⟩ => ⟨S32x512, .i1⟩
  | .hbm, ⟨28, _⟩ => ⟨S32x512x768, .f32⟩
  | .hbm, ⟨29, _⟩ => ⟨S32x512x768, .i1⟩
  | .hbm, ⟨30, _⟩ => ⟨S_, .f32⟩
  | .hbm, ⟨31, _⟩ => ⟨S32x512x768, .f32⟩
  | .hbm, ⟨32, _⟩ => ⟨S32x512x768, .f32⟩
  | .hbm, ⟨33, _⟩ => ⟨S32x128x4x768, .f32⟩
  | .hbm, ⟨34, _⟩ => ⟨S32x128x4, .f32⟩
  | .hbm, ⟨35, _⟩ => ⟨S32x128x4x1, .f32⟩
  | .hbm, ⟨36, _⟩ => ⟨S_, .i32⟩
  | .hbm, ⟨37, _⟩ => ⟨S32x128, .i32⟩
  | .hbm, ⟨38, _⟩ => ⟨S_, .i32⟩
  | .hbm, ⟨39, _⟩ => ⟨S32x128, .i32⟩
  | .hbm, ⟨40, _⟩ => ⟨S32x128, .i32⟩
  | .hbm, ⟨41, _⟩ => ⟨S32x128, .f32⟩
  | .hbm, ⟨42, _⟩ => ⟨S32x128x1, .f32⟩
  | .hbm, ⟨43, _⟩ => ⟨S32x128x4x768, .f32⟩
  | .hbm, ⟨44, _⟩ => ⟨S32x128x4x768, .f32⟩
  | .hbm, ⟨45, _⟩ => ⟨S_, .f32⟩
  | .hbm, ⟨46, _⟩ => ⟨S32x128x768, .f32⟩
  | .hbm, ⟨47, _⟩ => ⟨S32x128x768, .f32⟩
  | .hbm, ⟨48, _⟩ => ⟨S32x128x768, .f32⟩
  | .hbm, ⟨49, _⟩ => ⟨S32x1024, .i32⟩
  | .hbm, ⟨50, _⟩ => ⟨S32x1024x1, .i32⟩
  | .hbm, ⟨51, _⟩ => ⟨S_, .i32⟩
  | .hbm, ⟨52, _⟩ => ⟨S32x1024x1, .i32⟩
  | .hbm, ⟨53, _⟩ => ⟨S32x1024x1, .i1⟩
  | .hbm, ⟨54, _⟩ => ⟨S_, .i32⟩
  | .hbm, ⟨55, _⟩ => ⟨S32x1024x1, .i32⟩
  | .hbm, ⟨56, _⟩ => ⟨S32x1024x1, .i32⟩
  | .hbm, ⟨57, _⟩ => ⟨S32x1024x1, .i32⟩
  | .hbm, ⟨58, _⟩ => ⟨S1, .i32⟩
  | .hbm, ⟨59, _⟩ => ⟨S_, .i32⟩
  | .hbm, ⟨60, _⟩ => ⟨S32x1024x1, .i32⟩
  | .hbm, ⟨61, _⟩ => ⟨S32x1024x1, .i1⟩
  | .hbm, ⟨62, _⟩ => ⟨S1x1x1, .i32⟩
  | .hbm, ⟨63, _⟩ => ⟨S32x1024x1, .i32⟩
  | .hbm, ⟨64, _⟩ => ⟨S32x1024x1, .i1⟩
  | .hbm, ⟨65, _⟩ => ⟨S32x1024x1, .i1⟩
  | .hbm, ⟨66, _⟩ => ⟨S_, .i1⟩
  | .hbm, ⟨67, _⟩ => ⟨S32x1024, .i1⟩
  | .hbm, ⟨68, _⟩ => ⟨S32x1024x768, .f32⟩
  | .hbm, ⟨69, _⟩ => ⟨S32x1024x768, .i1⟩
  | .hbm, ⟨70, _⟩ => ⟨S_, .f32⟩
  | .hbm, ⟨71, _⟩ => ⟨S32x1024x768, .f32⟩
  | .hbm, ⟨72, _⟩ => ⟨S32x1024x768, .f32⟩
  | .hbm, ⟨73, _⟩ => ⟨S32x128x2x4x768, .f32⟩
  | .hbm, ⟨74, _⟩ => ⟨S32x128x2x4, .f32⟩
  | .hbm, ⟨75, _⟩ => ⟨S32x128x2x4x1, .f32⟩
  | .hbm, ⟨76, _⟩ => ⟨S_, .i32⟩
  | .hbm, ⟨77, _⟩ => ⟨S32x128x2, .i32⟩
  | .hbm, ⟨78, _⟩ => ⟨S_, .i32⟩
  | .hbm, ⟨79, _⟩ => ⟨S32x128x2, .i32⟩
  | .hbm, ⟨80, _⟩ => ⟨S32x128x2, .i32⟩
  | .hbm, ⟨81, _⟩ => ⟨S32x128x2, .f32⟩
  | .hbm, ⟨82, _⟩ => ⟨S32x128x2x1, .f32⟩
  | .hbm, ⟨83, _⟩ => ⟨S32x128x2x4x768, .f32⟩
  | .hbm, ⟨84, _⟩ => ⟨S32x128x2x4x768, .f32⟩
  | .hbm, ⟨85, _⟩ => ⟨S_, .f32⟩
  | .hbm, ⟨86, _⟩ => ⟨S32x128x2x768, .f32⟩
  | .hbm, ⟨87, _⟩ => ⟨S32x128x2x768, .f32⟩
  | .hbm, ⟨88, _⟩ => ⟨S32x128x2x768, .f32⟩
  | .hbm, ⟨89, _⟩ => ⟨S32x128x1536, .f32⟩
  | .hbm, ⟨90, _⟩ => ⟨S32x128x18, .f32⟩
  | .hbm, ⟨91, _⟩ => ⟨S1x1x18, .f32⟩
  | .hbm, ⟨92, _⟩ => ⟨S32x128x18, .f32⟩
  | .hbm, ⟨93, _⟩ => ⟨S32x128x18, .f32⟩
  | .hbm, ⟨94, _⟩ => ⟨S32x128x14, .f32⟩
  | .hbm, ⟨95, _⟩ => ⟨S1x1x14, .f32⟩
  | .hbm, ⟨96, _⟩ => ⟨S32x128x14, .f32⟩
  | .hbm, ⟨97, _⟩ => ⟨S32x128x14, .f32⟩
  | .hbm, ⟨98, _⟩ => ⟨S32x128x18, .f32⟩
  | .hbm, ⟨99, _⟩ => ⟨S_, .f32⟩
  | .hbm, ⟨100, _⟩ => ⟨S32x128x18, .f32⟩
  | .hbm, ⟨101, _⟩ => ⟨S32x128x18, .f32⟩
  | .hbm, ⟨102, _⟩ => ⟨S32x128x14, .f32⟩
  | .hbm, ⟨103, _⟩ => ⟨S_, .f32⟩
  | .hbm, ⟨104, _⟩ => ⟨S32x128x14, .f32⟩
  | .hbm, ⟨105, _⟩ => ⟨S32x128x14, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_c_2 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_c_3 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_c_1 : Ref sig .tc := ⟨.hbm, 76, rfl⟩
abbrev main_v22 : Ref sig .tc := ⟨.hbm, 77, rfl⟩
abbrev main_c_2 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_3 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_4 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_5 : Ref sig .tc := ⟨.hbm, 103, rfl⟩
abbrev main_v45 : Ref sig .tc := ⟨.hbm, 104, rfl⟩
abbrev main_v46 : Ref sig .tc := ⟨.hbm, 105, rfl⟩

abbrev nD : Nat := 1
abbrev τ : Topo := Topo.v7x

variable {F : FTy → Type} [FloatOps F]

class Facts₀ : Prop where
  shapeCasts_S32x128x4_S32x512 : S32x128x4.ShapeCasts S32x512
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  bcast_S32x512_S32x512x768_0_1 : S32x512.BroadcastsInDim S32x512x768 (![0, 1] : Fin 2 → Fin S32x512x768.rank)
  bcast_S_S32x512x768 : S_.BroadcastsInDim S32x512x768 (![] : Fin 0 → Fin S32x512x768.rank)
  shapeCasts_S32x512x768_S32x128x4x768 : S32x512x768.ShapeCasts S32x128x4x768
  bcast_S32x128x4_S32x128x4x1_0_1_2 : S32x128x4.BroadcastsInDim S32x128x4x1 (![0, 1, 2] : Fin 3 → Fin S32x128x4x1.rank)
  reducesTo_S32x128x4_S32x128_d2 : S32x128x4.ReducesTo [2] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x4x1_S32x128x4x768_0_1_2_3 : S32x128x4x1.BroadcastsInDim S32x128x4x768 (![0, 1, 2, 3] : Fin 4 → Fin S32x128x4x768.rank)
  reducesTo_S32x128x4x768_S32x128x768_d2 : S32x128x4x768.ReducesTo [2] S32x128x768
  bcast_S32x128x1_S32x128x768_0_1_2 : S32x128x1.BroadcastsInDim S32x128x768 (![0, 1, 2] : Fin 3 → Fin S32x128x768.rank)
  shapeCasts_S32x128x2x4_S32x1024 : S32x128x2x4.ShapeCasts S32x1024
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  bcast_S32x1024_S32x1024x768_0_1 : S32x1024.BroadcastsInDim S32x1024x768 (![0, 1] : Fin 2 → Fin S32x1024x768.rank)
  bcast_S_S32x1024x768 : S_.BroadcastsInDim S32x1024x768 (![] : Fin 0 → Fin S32x1024x768.rank)
  shapeCasts_S32x1024x768_S32x128x2x4x768 : S32x1024x768.ShapeCasts S32x128x2x4x768
  bcast_S32x128x2x4_S32x128x2x4x1_0_1_2_3 : S32x128x2x4.BroadcastsInDim S32x128x2x4x1 (![0, 1, 2, 3] : Fin 4 → Fin S32x128x2x4x1.rank)
  reducesTo_S32x128x2x4_S32x128x2_d3 : S32x128x2x4.ReducesTo [3] S32x128x2
  bcast_S_S32x128x2 : S_.BroadcastsInDim S32x128x2 (![] : Fin 0 → Fin S32x128x2.rank)
  bcast_S32x128x2_S32x128x2x1_0_1_2 : S32x128x2.BroadcastsInDim S32x128x2x1 (![0, 1, 2] : Fin 3 → Fin S32x128x2x1.rank)
  bcast_S32x128x2x4x1_S32x128x2x4x768_0_1_2_3_4 : S32x128x2x4x1.BroadcastsInDim S32x128x2x4x768 (![0, 1, 2, 3, 4] : Fin 5 → Fin S32x128x2x4x768.rank)
  reducesTo_S32x128x2x4x768_S32x128x2x768_d3 : S32x128x2x4x768.ReducesTo [3] S32x128x2x768
  bcast_S32x128x2x1_S32x128x2x768_0_1_2_3 : S32x128x2x1.BroadcastsInDim S32x128x2x768 (![0, 1, 2, 3] : Fin 4 → Fin S32x128x2x768.rank)
  shapeCasts_S32x128x2x768_S32x128x1536 : S32x128x2x768.ShapeCasts S32x128x1536
  bcast_S18_S1x1x18_2 : S18.BroadcastsInDim S1x1x18 (![2] : Fin 1 → Fin S1x1x18.rank)
  bcast_S1x1x18_S32x128x18_0_1_2 : S1x1x18.BroadcastsInDim S32x128x18 (![0, 1, 2] : Fin 3 → Fin S32x128x18.rank)
  bcast_S14_S1x1x14_2 : S14.BroadcastsInDim S1x1x14 (![2] : Fin 1 → Fin S1x1x14.rank)
  bcast_S1x1x14_S32x128x14_0_1_2 : S1x1x14.BroadcastsInDim S32x128x14 (![0, 1, 2] : Fin 3 → Fin S32x128x14.rank)
  bcast_S_S32x128x18 : S_.BroadcastsInDim S32x128x18 (![] : Fin 0 → Fin S32x128x18.rank)
  bcast_S_S32x128x14 : S_.BroadcastsInDim S32x128x14 (![] : Fin 0 → Fin S32x128x14.rank)
  gather_S32x512x768_S32x512x1_S32x512x768_2_1_0_0_1_2_11768_wf : GatherDims.WF S32x512x768 S32x512x1 S32x512x768 [2] [1] [0] [1] [0] 2 ![1, 1, 768]
  gather_S32x512x768_S32x1024x1_S32x1024x768_2_1_0_0_1_2_11768_wf : GatherDims.WF S32x512x768 S32x1024x1 S32x1024x768 [2] [1] [0] [1] [0] 2 ![1, 1, 768]
  dot_S32x128x768_S18x768_S32x128x18_2_1_01_0_n_n_wf : DotDims.WF S32x128x768 S18x768 S32x128x18 [2] [1] [0, 1] [0] [] []
  dot_S32x128x1536_S14x1536_S32x128x14_2_1_01_0_n_n_wf : DotDims.WF S32x128x1536 S14x1536 S32x128x14 [2] [1] [0, 1] [0] [] []

variable [Facts₀]

def gather_S32x512x768_S32x512x1_S32x512x768_2_1_0_0_1_2_11768 : GatherDims S32x512x768 S32x512x1 S32x512x768 where
  offsetDims := [2]
  collapsedSliceDims := [1]
  operandBatchingDims := [0]
  startIndicesBatchingDims := [0]
  startIndexMap := [1]
  indexVectorDim := 2
  sliceSizes := ![1, 1, 768]
  wf := gather_S32x512x768_S32x512x1_S32x512x768_2_1_0_0_1_2_11768_wf
def gather_S32x512x768_S32x1024x1_S32x1024x768_2_1_0_0_1_2_11768 : GatherDims S32x512x768 S32x1024x1 S32x1024x768 where
  offsetDims := [2]
  collapsedSliceDims := [1]
  operandBatchingDims := [0]
  startIndicesBatchingDims := [0]
  startIndexMap := [1]
  indexVectorDim := 2
  sliceSizes := ![1, 1, 768]
  wf := gather_S32x512x768_S32x1024x1_S32x1024x768_2_1_0_0_1_2_11768_wf
def dot_S32x128x768_S18x768_S32x128x18_2_1_01_0_n_n : DotDims S32x128x768 S18x768 S32x128x18 where
  lhsContracting := [2]
  rhsContracting := [1]
  lhsNonContracting := [0, 1]
  rhsNonContracting := [0]
  lhsBatch := []
  rhsBatch := []
  wf := dot_S32x128x768_S18x768_S32x128x18_2_1_01_0_n_n_wf
def dot_S32x128x1536_S14x1536_S32x128x14_2_1_01_0_n_n : DotDims S32x128x1536 S14x1536 S32x128x14 where
  lhsContracting := [2]
  rhsContracting := [1]
  lhsNonContracting := [0, 1]
  rhsNonContracting := [0]
  lhsBatch := []
  rhsBatch := []
  wf := dot_S32x128x1536_S14x1536_S32x128x14_2_1_01_0_n_n_wf

class Facts : Prop extends Facts₀ where

variable [Facts]
-- ==== Proof.SpanSpec.lean ====
/-
  The span-pooling heads as ONE function of the argument arrays.

  A span is four positions i₀ … i₃ on the sequence axis (extent 512), each with a mask word μ₀ … μ₃.
  Its pooled feature over one column h of the hidden states is the masked mean

      ( ∑ₗ h(iₗ) · μₗ ) / max( ∑ₗ μₗ , 1 ).

  A node's score for class k is  5 · tanh( ∑_d feat(d) · W(k, d) + bias(k) )  over the 768 columns; an edge's
  feature row is its head span's 768 means followed by its tail span's, 1536 in all, scored the same way.
  Words are read as signed integers; a position word names the position equal to it modulo 512, which is the
  word itself when it lies in range.
-/
import Idealize.ShloMosaic.Lib.ValueIdx
import Idealize.ShloMosaic.PureOps.Ideal

noncomputable section

namespace Cert.Span

open Idealize.ShloMosaic Idealize.ShloMosaic.ValueIdx

/-- A word as the extended real of its signed value. -/
def wR (w : BitVec 32) : EReal := ((w.toInt : ℝ) : EReal)

/-- The position on an axis of extent 512 that a word names. -/
def pos (w : BitVec 32) : Fin 512 := ⟨w.toNat % 512, Nat.mod_lt _ (by decide)⟩

/-- The masked mean of a span over one column `h` of the hidden states. -/
def spanMean (h : Fin 512 → EReal) (ix mk : Fin 4 → BitVec 32) : EReal :=
  Ideal.div (∑ l : Fin 4, h (pos (ix l)) * wR (mk l)) (max (∑ l : Fin 4, wR (mk l)) 1)

/-- Every entry of a float array is a real number. -/
def Finite {s : Shape} (x : FVec Ideal s .f32) : Prop := ∀ i, ∃ r : ℝ, x i = (r : EReal)

/-- Every word of an integer array is a position on the axis of extent 512. -/
def InRange {s : Shape} (x : IVec s 32) : Prop := ∀ i, (x i).toNat < 512

/-- Every word of an integer array is 0 or 1. -/
def Mask01 {s : Shape} (x : IVec s 32) : Prop := ∀ i, (x i).toNat ≤ 1

abbrev SHid : Shape := ⟨3, ![32, 512, 768]⟩
abbrev SNode : Shape := ⟨3, ![32, 128, 4]⟩
abbrev SEdge : Shape := ⟨4, ![32, 128, 2, 4]⟩

/-- Node `n` of batch `b`, class `k`. -/
def nodeAt (hid : FVec Ideal SHid .f32) (ix mk : IVec SNode 32) (W : FVec Ideal ⟨2, ![18, 768]⟩ .f32)
    (bias : FVec Ideal ⟨1, ![18]⟩ .f32) (b : Fin 32) (n : Fin 128) (k : Fin 18) : EReal :=
  Ideal.tanh ((∑ d : Fin 768, spanMean (fun s => hid (ix3 b s d)) (fun l => ix (ix3 b n l)) (fun l => mk (ix3 b n l))
      * W (ix2 k d)) + bias (ix1 k)) * Ideal.ofBits .f32 0x40A00000#32

/-- Column `j` of an edge's feature row: the head span's means, then the tail span's. -/
def edgeFeat (hid : FVec Ideal SHid .f32) (ix mk : IVec SEdge 32) (b : Fin 32) (e : Fin 128) (j : Fin 1536) : EReal :=
  spanMean (fun s => hid (ix3 b s ⟨j.val % 768, Nat.mod_lt _ (by decide)⟩))
    (fun l => ix (ix4 b e ⟨j.val / 768, by have := j.isLt; omega⟩ l))
    (fun l => mk (ix4 b e ⟨j.val / 768, by have := j.isLt; omega⟩ l))

/-- Edge `e` of batch `b`, class `k`. -/
def edgeAt (hid : FVec Ideal SHid .f32) (ix mk : IVec SEdge 32) (W : FVec Ideal ⟨2, ![14, 1536]⟩ .f32)
    (bias : FVec Ideal ⟨1, ![14]⟩ .f32) (b : Fin 32) (e : Fin 128) (k : Fin 14) : EReal :=
  Ideal.tanh ((∑ j : Fin 1536, edgeFeat hid ix mk b e j * W (ix2 k j)) + bias (ix1 k)) * Ideal.ofBits .f32 0x40A00000#32

/-- The node scores as one array. -/
def nodeG (hid : FVec Ideal SHid .f32) (ix mk : IVec SNode 32) (W : FVec Ideal ⟨2, ![18, 768]⟩ .f32)
    (bias : FVec Ideal ⟨1, ![18]⟩ .f32) : FVec Ideal ⟨3, ![32, 128, 18]⟩ .f32 :=
  fun y => nodeAt hid ix mk W bias ⟨(y 0).val, (y 0).isLt⟩ ⟨(y 1).val, (y 1).isLt⟩ ⟨(y 2).val, (y 2).isLt⟩

/-- The edge scores as one array. -/
def edgeG (hid : FVec Ideal SHid .f32) (ix mk : IVec SEdge 32) (W : FVec Ideal ⟨2, ![14, 1536]⟩ .f32)
    (bias : FVec Ideal ⟨1, ![14]⟩ .f32) : FVec Ideal ⟨3, ![32, 128, 14]⟩ .f32 :=
  fun y => edgeAt hid ix mk W bias ⟨(y 0).val, (y 0).isLt⟩ ⟨(y 1).val, (y 1).isLt⟩ ⟨(y 2).val, (y 2).isLt⟩

end Cert.Span

end
-- ==== Proof.PreDecode.lean ====
/-
  The precondition, decoded.

  The printed predicate is a conjunction of nine "all entries" tests reduced to one bit. Where it holds, the hidden states are
  real numbers entry by entry, every position word lies on the axis of extent 512 (0 ≤ w < 512, signed), and every mask word
  is 0 or 1 (0 ≤ w ≤ 1, signed).
-/
import proofs.«429343_j87797721465415_1_alg».proof.Pre_finite_inputs
import proofs.«429343_j87797721465415_1_alg».proof.Proof.SpanSpec
import Idealize.ShloMosaic.Lib.ReduceAll
import Idealize.ShloMosaic.Lib.StableHlo.Predicate

noncomputable section

namespace Cert.PreDecode

open Idealize.ShloMosaic Cert.Span Cert.Pre_finite_inputs

/-- The rank-0 shape has one index. -/
instance : Subsingleton S_.Idx := ⟨fun a b => funext fun d => d.elim0⟩

/-- A conjunction of two bits is 1 exactly when both are. -/
theorem and1 : ∀ (a b : BitVec 1), IntOp.andi a b = 1#1 ↔ a = 1#1 ∧ b = 1#1 := by decide

/-- A bit made from a Boolean is 1 exactly when the Boolean holds. -/
theorem ofBool_one (b : Bool) : BitVec.ofBool b = 1#1 ↔ b = true := by cases b <;> decide

/-- A word in [0, 512) signed is below 512 unsigned. -/
theorem toNat_lt_512 (w : BitVec 32) (h0 : IntOp.cmpi .sge w (0#32) = 1#1)
    (h1 : IntOp.cmpi .slt w (512#32) = 1#1) : w.toNat < 512 := by
  unfold IntOp.cmpi at h0 h1
  rw [ofBool_one] at h0 h1
  simp only [BitVec.slt, BitVec.sle, decide_eq_true_eq] at h0 h1
  have h32 := w.isLt
  unfold BitVec.toInt at h0 h1
  split at h1 <;> simp at h0 h1 <;> omega

/-- A word in [0, 1] signed is at most 1 unsigned. -/
theorem toNat_le_1 (w : BitVec 32) (h0 : IntOp.cmpi .sge w (0#32) = 1#1)
    (h1 : IntOp.cmpi .sle w (1#32) = 1#1) : w.toNat ≤ 1 := by
  unfold IntOp.cmpi at h0 h1
  rw [ofBool_one] at h0 h1
  simp only [BitVec.slt, BitVec.sle, decide_eq_true_eq] at h0 h1
  have h32 := w.isLt
  unfold BitVec.toInt at h0 h1
  split at h1 <;> simp at h0 h1 <;> omega

/-- The pattern of +∞. -/
theorem ofBits_inf : Ideal.ofBits .f32 0x7F800000#32 = (⊤ : EReal) := by simp [Ideal.ofBits, Ideal.ieee]

/-- An extended real whose absolute value is strictly below +∞ is a real number: at ⊤ the value itself, at ⊥ its negative,
    is ⊤, which is not below ⊤. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  rw [ofBool_one] at h
  simp only [decide_eq_true_eq] at h
  induction x using EReal.rec with
  | bot => simp at h
  | coe r => exact ⟨r, rfl⟩
  | top => simp at h

/-- A pointwise conjunction of two bit arrays is 1 at an index exactly when both are. -/
theorem andi_pt {s : Shape} (x y : IVec s 1) (j : s.Idx) : andi x y j = 1#1 ↔ x j = 1#1 ∧ y j = 1#1 := and1 _ _

/-- The test of a float array: where "all entries have absolute value below +∞" reduces to 1, every entry is a real. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) : Finite x := by
  intro i
  have hi := Host.reduce_andi_all _ _ hr hu _ e i
  exact real_of_abs_lt (x i) hi

/-- The test of a position array: where "all words are in [0, 512) signed" reduces to 1, every word is below 512. -/
theorem inRange_of_all {s : Shape} {axes : List (Fin s.rank)} (x : IVec s 32)
    (hb : S_.BroadcastsInDim s (![] : Fin 0 → Fin s.rank)) (hr : s.ReducesTo axes S_) (hu : 0 < S_.numel)
    (e : Host.reduce IntOp.andi
        (andi (cmpi .sge x (broadcastInDim s ![] hb (constantI S_ 32 0#32)))
          (cmpi .slt x (broadcastInDim s ![] hb (constantI S_ 32 512#32))))
        (constantI S_ 1 1#1) hr hu ValueIdx.ix0 = 1#1) : InRange x := by
  intro i
  have hi := Host.reduce_andi_all _ _ hr hu _ e i
  obtain ⟨p, q⟩ := (andi_pt _ _ _).1 hi
  exact toNat_lt_512 (x i) p q

/-- The test of a mask array: where "all words are in [0, 1] signed" reduces to 1, every word is 0 or 1. -/
theorem mask01_of_all {s : Shape} {axes : List (Fin s.rank)} (x : IVec s 32)
    (hb : S_.BroadcastsInDim s (![] : Fin 0 → Fin s.rank)) (hr : s.ReducesTo axes S_) (hu : 0 < S_.numel)
    (e : Host.reduce IntOp.andi
        (andi (cmpi .sge x (broadcastInDim s ![] hb (constantI S_ 32 0#32)))
          (cmpi .sle x (broadcastInDim s ![] hb (constantI S_ 32 1#32))))
        (constantI S_ 1 1#1) hr hu ValueIdx.ix0 = 1#1) : Mask01 x := by
  intro i
  have hi := Host.reduce_andi_all _ _ hr hu _ e i
  obtain ⟨p, q⟩ := (andi_pt _ _ _).1 hi
  exact toNat_le_1 (x i) p q

theorem decode [Cert.Pre_finite_inputs.Facts] (a0 : FVec Ideal S32x512x768 .f32) (a1 a2 : IVec S32x128x4 32)
    (a3 a4 : IVec S32x128x2x4 32) (a5 : FVec Ideal S18x768 .f32) (a6 : FVec Ideal S18 .f32)
    (a7 : FVec Ideal S14x1536 .f32) (a8 : FVec Ideal S14 .f32)
    (h : Cert.Pre_finite_inputs.fn (F := Ideal) a0 a1 a2 a3 a4 a5 a6 a7 a8 = fun _ => 1#1) :
    Finite a0 ∧ InRange a1 ∧ Mask01 a2 ∧ InRange a3 ∧ Mask01 a4 := by
  have e := congrFun h ValueIdx.ix0
  unfold Cert.Pre_finite_inputs.fn Cert.Pre_finite_inputs.fn_part1 Cert.Pre_finite_inputs.fn_part2
    Cert.Pre_finite_inputs.fn_part3 at e
  dsimp only at e
  -- the nine tests, in the order the predicate conjoins them: the five float arrays, then positions and masks
  obtain ⟨e, h4⟩ := (andi_pt _ _ _).1 e
  obtain ⟨e, h2⟩ := (andi_pt _ _ _).1 e
  obtain ⟨e, h3⟩ := (andi_pt _ _ _).1 e
  obtain ⟨e, h1⟩ := (andi_pt _ _ _).1 e
  obtain ⟨e, -⟩ := (andi_pt _ _ _).1 e
  obtain ⟨e, -⟩ := (andi_pt _ _ _).1 e
  obtain ⟨e, -⟩ := (andi_pt _ _ _).1 e
  obtain ⟨h0, -⟩ := (andi_pt _ _ _).1 e
  exact ⟨finite_of_all a0 _ _ _ h0, inRange_of_all a1 _ _ _ h1, mask01_of_all a2 _ _ _ h2,
    inRange_of_all a3 _ _ _ h3, mask01_of_all a4 _ _ _ h4⟩

end Cert.PreDecode

end
-- ==== Proof.SpanLaw.lean ====
/-
  Two laws of the masked span mean, over the extended reals.

  (1) The weight row. Position s of a span's weight row is  ( ∑ₗ [s = iₗ] · μₗ ) / c  with  c = max(∑ₗ μₗ, 1).
      Against a column h of real numbers,  ∑ₛ w(s) · h(s) = ( ∑ₗ h(iₗ) · μₗ ) / c : each indicator picks one position, and
      the division by c moves out of the sum because every term is a real number.
  (2) The count. Four mask words that are 0 or 1 add up, as words, to their number of ones (at most 4: nothing wraps), so the
      larger of that word and the word 1, read as a real, is the larger of the real sum and 1.
-/
import proofs.«429343_j87797721465415_1_alg».proof.Proof.SpanSpec
import Idealize.ShloMosaic.PureOps.Ideal.Laws
import Idealize.ShloMosaic.Lib.StableHlo.Predicate

noncomputable section

namespace Cert.Span

open Idealize.ShloMosaic

/-- The float word of 1.0 is the real number 1. -/
theorem one_f32 : Ideal.ofBits .f32 0x3F800000#32 = (1 : EReal) := by
  simp [Ideal.ofBits, Ideal.ieee, -EReal.coe_mul]; norm_num

/-- Position `s`'s share of span slot `l`: the indicator of "position s is the slot's position", widened to a word and read
    as a real, times the slot's mask. -/
def oh (ix mk : Fin 4 → BitVec 32) (s : Fin 512) (l : Fin 4) : EReal :=
  wR ((IntOp.cmpi .eq (BitVec.ofNat 32 s.val) (ix l)).setWidth 32) * wR (mk l)

/-- A word below 2³¹ read as a real is its unsigned value. -/
theorem wR_small (w : BitVec 32) (h : w.toNat < 2 ^ 31) : wR w = ((w.toNat : ℝ) : EReal) := by
  unfold wR
  rw [StableHlo.Predicate.toInt_eq_toNat_of_lt h]
  simp

/-- A finite sum of reals, each read in the extended reals, is the real sum read there. -/
theorem sum_coe {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The indicator word of "position s is the word a's position", read as a real. -/
theorem ind_word (s : Fin 512) (a : BitVec 32) (ha : a.toNat < 512) :
    wR ((IntOp.cmpi .eq (BitVec.ofNat 32 s.val) a).setWidth 32) = (((if s = pos a then (1 : ℝ) else 0) : ℝ) : EReal) := by
  have hs := s.isLt
  have hb : (IntOp.cmpi .eq (BitVec.ofNat 32 s.val) a = 1#1) ↔ s = pos a := by
    rw [StableHlo.Predicate.cmpi_eq_iff]
    constructor
    · intro h
      apply Fin.ext
      have : a.toNat = s.val := by rw [← h, BitVec.toNat_ofNat]; omega
      simp only [pos]; omega
    · intro h
      apply BitVec.eq_of_toNat_eq
      have : s.val = a.toNat % 512 := by rw [h]; rfl
      rw [BitVec.toNat_ofNat]; omega
  have hv := StableHlo.Predicate.toNat_setWidth_bit (IntOp.cmpi .eq (BitVec.ofNat 32 s.val) a)
  rw [wR_small _ (by rw [hv]; split <;> omega), hv]
  by_cases h : s = pos a
  · rw [if_pos (hb.mpr h), if_pos h]; simp
  · rw [if_neg (mt hb.mp h), if_neg h]; simp

/-- The real identity behind the weight row: each indicator picks one position of the column. -/
theorem real_row (r : Fin 512 → ℝ) (p : Fin 4 → Fin 512) (μ : Fin 4 → ℝ) (c : ℝ) :
    ∑ s : Fin 512, (∑ l : Fin 4, (if s = p l then (1 : ℝ) else 0) * μ l) * (1 / c) * r s
      = (∑ l : Fin 4, r (p l) * μ l) * (1 / c) := by
  simp only [Finset.sum_mul]
  rw [Finset.sum_comm]
  refine Finset.sum_congr rfl fun l _ => ?_
  have : ∀ s : Fin 512, (if s = p l then (1 : ℝ) else 0) * μ l * (1 / c) * r s
      = if s = p l then r s * μ l * (1 / c) else 0 := by
    intro s; split <;> ring
  rw [Finset.sum_congr rfl fun s _ => this s, Finset.sum_ite_eq']
  simp

/-- Reading a real in the extended reals keeps the larger of two. -/
theorem coe_max (x y : ℝ) : ((max x y : ℝ) : EReal) = max (x : EReal) (y : EReal) :=
  EReal.coe_strictMono.monotone.map_max

/-- The left-nested four-term sum starting from 0 is the sum over the four slots. -/
theorem nest4 (f : Fin 4 → EReal) : ((((0 : EReal) + f 0) + f 1) + f 2) + f 3 = ∑ l : Fin 4, f l := by
  rw [Fin.sum_univ_four, zero_add]

/-- THE WEIGHT ROW against a column of reals is the masked mean. -/
theorem weighted_row (h : Fin 512 → EReal) (hh : ∀ s, ∃ r : ℝ, h s = (r : EReal)) (ix mk : Fin 4 → BitVec 32)
    (hix : ∀ l, (ix l).toNat < 512) (hmk : ∀ l, (mk l).toNat ≤ 1) :
    ∑ s : Fin 512, Ideal.div (((((0 : EReal) + oh ix mk s 0) + oh ix mk s 1) + oh ix mk s 2) + oh ix mk s 3)
        (max (((((0 : EReal) + wR (mk 0)) + wR (mk 1)) + wR (mk 2)) + wR (mk 3)) 1) * h s
      = spanMean h ix mk := by
  choose r hr using hh
  -- every mask word is the real 0 or 1
  have hμ : ∀ l, wR (mk l) = ((((mk l).toNat : ℝ)) : EReal) := fun l => wR_small _ (by have := hmk l; omega)
  -- every share is a real: indicator times mask
  have hoh : ∀ s l, oh ix mk s l
      = (((if s = pos (ix l) then (1 : ℝ) else 0) * ((mk l).toNat : ℝ) : ℝ) : EReal) := by
    intro s l; unfold oh; rw [ind_word s (ix l) (hix l), hμ l, EReal.coe_mul]
  -- the divisor is a real, at least 1
  have hden : max (∑ l : Fin 4, wR (mk l)) 1 = ((max (∑ l : Fin 4, ((mk l).toNat : ℝ)) 1 : ℝ) : EReal) := by
    rw [Finset.sum_congr rfl fun l _ => hμ l, sum_coe, coe_max, EReal.coe_one]
  have hc : max (∑ l : Fin 4, ((mk l).toNat : ℝ)) 1 ≠ 0 := by
    have : (1 : ℝ) ≤ max (∑ l : Fin 4, ((mk l).toNat : ℝ)) 1 := le_max_right _ _
    linarith
  -- one term of the row, as a real
  have hterm : ∀ s : Fin 512,
      Ideal.div (((((0 : EReal) + oh ix mk s 0) + oh ix mk s 1) + oh ix mk s 2) + oh ix mk s 3)
        (max (((((0 : EReal) + wR (mk 0)) + wR (mk 1)) + wR (mk 2)) + wR (mk 3)) 1) * h s
      = (((∑ l : Fin 4, (if s = pos (ix l) then (1 : ℝ) else 0) * ((mk l).toNat : ℝ))
            * (1 / max (∑ l : Fin 4, ((mk l).toNat : ℝ)) 1) * r s : ℝ) : EReal) := by
    intro s
    rw [nest4 (fun l => oh ix mk s l), nest4 (fun l => wR (mk l)), hden, Ideal.div_coe hc,
      Finset.sum_congr rfl fun l _ => hoh s l, sum_coe, hr s, ← EReal.coe_mul, ← EReal.coe_mul]
  rw [Finset.sum_congr rfl fun s _ => hterm s, sum_coe, real_row r (fun l => pos (ix l))]
  unfold spanMean
  have hnum : ∀ l : Fin 4, h (pos (ix l)) * wR (mk l) = ((r (pos (ix l)) * ((mk l).toNat : ℝ) : ℝ) : EReal) := by
    intro l; rw [hr, hμ, ← EReal.coe_mul]
  rw [hden, Ideal.div_coe hc, Finset.sum_congr rfl fun l _ => hnum l, sum_coe, ← EReal.coe_mul]

/-- THE COUNT: a word whose value is the number of ones among four 0/1 mask words. -/
theorem count_eq (mk : Fin 4 → BitVec 32) (hmk : ∀ l, (mk l).toNat ≤ 1) (sum : BitVec 32)
    (hs : sum.toNat = ∑ l : Fin 4, (mk l).toNat) :
    wR (IntOp.maxsi sum 1#32) = max (∑ l : Fin 4, wR (mk l)) 1 := by
  have hμ : ∀ l, wR (mk l) = ((((mk l).toNat : ℝ)) : EReal) := fun l => wR_small _ (by have := hmk l; omega)
  -- at most four ones: nothing wraps, and the word reads the same signed and unsigned
  have hle : sum.toNat ≤ 4 := by
    rw [hs, Fin.sum_univ_four]; have := hmk 0; have := hmk 1; have := hmk 2; have := hmk 3; omega
  have hR : max (∑ l : Fin 4, wR (mk l)) 1 = ((max (sum.toNat : ℝ) 1 : ℝ) : EReal) := by
    rw [Finset.sum_congr rfl fun l _ => hμ l, sum_coe, coe_max, EReal.coe_one, hs, Nat.cast_sum]
  rw [hR]
  have h1 : (1#32 : BitVec 32).toInt = 1 := by decide
  have hsi : sum.toInt = sum.toNat := StableHlo.Predicate.toInt_eq_toNat_of_lt (by omega)
  unfold IntOp.maxsi
  split <;> rename_i hc <;> simp only [BitVec.slt, hsi, h1, decide_eq_true_eq] at hc
  · rw [wR_small _ (by omega)]
    congr 1
    rw [max_eq_left]
    exact_mod_cast hc.le
  · rw [wR_small _ (by decide)]
    congr 1
    have : (sum.toNat : ℝ) ≤ 1 := by exact_mod_cast (by omega : sum.toNat ≤ 1)
    rw [max_eq_right this]
    simp

end Cert.Span

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KWeight.lean ====
/-
  The span weight the kernel builds, against the hidden block.

  From an index table and a mask table (128 spans × 4 slots) the kernel forms, slot by slot, the indicator of "column s
  is the slot's position" times the slot's mask, adds the four, divides each row by max(number of set masks, 1), and
  multiplies the [128, 512] result into the [512, 768] hidden block. Entry (n, d) of that product is the masked mean of
  span n over column d of the block.
-/
import proofs.«429343_j87797721465415_1_alg».proof.Proof.Gen.KernelIdeal.Skeleton
import proofs.«429343_j87797721465415_1_alg».proof.Proof.SpanLaw
import proofs.«429343_j87797721465415_1_alg».proof.Proof.LibPlainDot
import proofs.«429343_j87797721465415_1_alg».proof.Proof.LibColumn
import Idealize.ShloMosaic.Lib.Pipeline.Value

noncomputable section

namespace Cert.KernelIdeal.SpanK

open Cert.KernelIdeal Cert.KernelIdeal.Gen Idealize.ShloMosaic Idealize.ShloMosaic.ValueIdx Cert.Span

/-- The [128, 512] weight of an index table and a mask table, as the body spells it. -/
def weight (idx mk : IVec S128x4 32) : FVec Ideal S128x512 .bf16 :=
  let io : IVec S128x512 32 := iota .tc S128x512 32 [1] iota_S128x512_d1_w32
  let i0 : IVec S128x1 32 := extractStridedSlice S128x1 ![0, 0] idx slices_S128x4_o0_0_S128x1
  let i1 : IVec S128x1 32 := extractStridedSlice S128x1 ![0, 1] idx slices_S128x4_o0_1_S128x1
  let i2 : IVec S128x1 32 := extractStridedSlice S128x1 ![0, 2] idx slices_S128x4_o0_2_S128x1
  let i3 : IVec S128x1 32 := extractStridedSlice S128x1 ![0, 3] idx slices_S128x4_o0_3_S128x1
  let m0 : FVec Ideal S128x1 .f32 := sitofp .f32 (extractStridedSlice S128x1 ![0, 0] mk slices_S128x4_o0_0_S128x1)
  let m1 : FVec Ideal S128x1 .f32 := sitofp .f32 (extractStridedSlice S128x1 ![0, 1] mk slices_S128x4_o0_1_S128x1)
  let m2 : FVec Ideal S128x1 .f32 := sitofp .f32 (extractStridedSlice S128x1 ![0, 2] mk slices_S128x4_o0_2_S128x1)
  let m3 : FVec Ideal S128x1 .f32 := sitofp .f32 (extractStridedSlice S128x1 ![0, 3] mk slices_S128x4_o0_3_S128x1)
  let T (ic : IVec S128x1 32) (mc : FVec Ideal S128x1 .f32) : FVec Ideal S128x512 .f32 :=
    mulf (sitofp .f32 (extui 32 (cmpi .eq io (broadcastTo S128x512 ic broadcasts_S128x1_S128x512)) natLt_1_32))
      (broadcastTo S128x512 mc broadcasts_S128x1_S128x512)
  let acc : FVec Ideal S128x512 .f32 :=
    addf (addf (addf (addf (broadcast S128x512 (Scalar.ofBits .f32 0x00000000#32)) (T i0 m0)) (T i1 m1)) (T i2 m2)) (T i3 m3)
  let cnt : FVec Ideal S128x1 .f32 :=
    addf (addf (addf (addf (broadcast S128x1 (Scalar.ofBits .f32 0x00000000#32)) m0) m1) m2) m3
  truncf .bf16 (divf acc (broadcastTo S128x512 (maximumf cnt (broadcast S128x1 (Scalar.ofBits .f32 0x3F800000#32)))
    broadcasts_S128x1_S128x512)) bitsLt_bf16_f32

/-- A column of a [128, 4] table read at row n: the offsets (0, l) pick the table's entry (n, l). -/
theorem col_apply {α : Type} (off : Fin 2 → Nat) (x : S128x4.Idx → α) (h : S128x4.Slices off S128x1)
    (n : Fin 128) (l : Fin 4) (h0 : off 0 = 0) (h1 : off 1 = l.val) :
    extractStridedSlice S128x1 off x h (ix2 n (0 : Fin 1)) = x (ix2 n l) := by
  refine extractStridedSlice_apply off x h (ix2 n (0 : Fin 1)) (ix2 n l) fun a => ?_
  match a with
  | ⟨0, _⟩ =>
    show n.val = off 0 + n.val
    rw [h0, Nat.zero_add]
  | ⟨1, _⟩ =>
    show l.val = off 1 + 0
    rw [h1, Nat.add_zero]

/-- The indicator of "column s is the position the column vector names in row n", widened and read as a real. -/
theorem ind_apply (ic : IVec S128x1 32) (n : Fin 128) (s : Fin 512) :
    (sitofp .f32 (extui 32 (cmpi .eq (iota .tc S128x512 32 [1] iota_S128x512_d1_w32)
        (broadcastTo S128x512 ic broadcasts_S128x1_S128x512)) natLt_1_32) : FVec Ideal S128x512 .f32) (ix2 n s)
      = wR ((IntOp.cmpi .eq (BitVec.ofNat 32 s.val) (ic (ix2 n (0 : Fin 1)))).setWidth 32) := by
  show FloatOps.sitofp .f32 ((IntOp.cmpi .eq (iota .tc S128x512 32 [1] iota_S128x512_d1_w32 (ix2 n s))
      (broadcastTo S128x512 ic broadcasts_S128x1_S128x512 (ix2 n s))).setWidth 32) = _
  rw [iota_single_apply, Column.broadcastTo_a1_ab_apply]
  rfl

/-- A mask column, read as reals, at row n. -/
theorem mcol_apply (mk : IVec S128x4 32) (off : Fin 2 → Nat) (h : S128x4.Slices off S128x1)
    (n : Fin 128) (l : Fin 4) (h0 : off 0 = 0) (h1 : off 1 = l.val) :
    (sitofp .f32 (extractStridedSlice S128x1 off mk h) : FVec Ideal S128x1 .f32) (ix2 n (0 : Fin 1))
      = wR (mk (ix2 n l)) := by
  show FloatOps.sitofp .f32 (extractStridedSlice S128x1 off mk h (ix2 n (0 : Fin 1))) = _
  rw [col_apply off mk h n l h0 h1]
  rfl

/-- One slot's term at (n, s): the indicator of the slot's position times the slot's mask. -/
theorem slot_apply (idx mk : IVec S128x4 32) (off : Fin 2 → Nat) (h : S128x4.Slices off S128x1)
    (n : Fin 128) (s : Fin 512) (l : Fin 4) (h0 : off 0 = 0) (h1 : off 1 = l.val) :
    mulf (sitofp .f32 (extui 32 (cmpi .eq (iota .tc S128x512 32 [1] iota_S128x512_d1_w32)
          (broadcastTo S128x512 (extractStridedSlice S128x1 off idx h) broadcasts_S128x1_S128x512)) natLt_1_32))
        (broadcastTo S128x512 (sitofp .f32 (extractStridedSlice S128x1 off mk h) : FVec Ideal S128x1 .f32)
          broadcasts_S128x1_S128x512) (ix2 n s)
      = oh (fun l => idx (ix2 n l)) (fun l => mk (ix2 n l)) s l := by
  rw [mulf_apply, ind_apply, Column.broadcastTo_a1_ab_apply, mcol_apply mk off h n l h0 h1,
    col_apply off idx h n l h0 h1]
  rfl

/-- THE WEIGHT at (n, s): the four slot terms added onto zero, over the larger of the row's mask count and one. -/
theorem weight_apply (idx mk : IVec S128x4 32) (n : Fin 128) (s : Fin 512) :
    weight idx mk (ix2 n s)
      = Ideal.div
          (((((0 : EReal) + oh (fun l => idx (ix2 n l)) (fun l => mk (ix2 n l)) s 0)
            + oh (fun l => idx (ix2 n l)) (fun l => mk (ix2 n l)) s 1)
            + oh (fun l => idx (ix2 n l)) (fun l => mk (ix2 n l)) s 2)
            + oh (fun l => idx (ix2 n l)) (fun l => mk (ix2 n l)) s 3)
          (max (((((0 : EReal) + wR (mk (ix2 n 0))) + wR (mk (ix2 n 1))) + wR (mk (ix2 n 2))) + wR (mk (ix2 n 3))) 1) := by
  unfold weight
  simp only [truncf_apply, divf_apply, addf_apply, broadcast_apply, maximumf_apply, Column.broadcastTo_a1_ab_apply]
  rw [slot_apply idx mk _ slices_S128x4_o0_0_S128x1 n s 0 rfl rfl,
    slot_apply idx mk _ slices_S128x4_o0_1_S128x1 n s 1 rfl rfl,
    slot_apply idx mk _ slices_S128x4_o0_2_S128x1 n s 2 rfl rfl,
    slot_apply idx mk _ slices_S128x4_o0_3_S128x1 n s 3 rfl rfl,
    mcol_apply mk _ slices_S128x4_o0_0_S128x1 n 0 rfl rfl,
    mcol_apply mk _ slices_S128x4_o0_1_S128x1 n 1 rfl rfl,
    mcol_apply mk _ slices_S128x4_o0_2_S128x1 n 2 rfl rfl,
    mcol_apply mk _ slices_S128x4_o0_3_S128x1 n 3 rfl rfl]
  show Ideal.div ((((Ideal.ofBits .f32 0x00000000#32 + _) + _) + _) + _)
      (max ((((Ideal.ofBits .f32 0x00000000#32 + _) + _) + _) + _) (Ideal.ofBits .f32 0x3F800000#32)) = _
  rw [Ideal.ofBits_zero_f32, one_f32]

/-- ENTRY (n, d) of the weight times a block of reals is the masked mean of span n over column d. -/
theorem weight_matmul (idx mk : IVec S128x4 32) (hb : FVec Ideal S512x768 .bf16) (hix : InRange idx) (hmk : Mask01 mk)
    (hfin : ∀ i, ∃ r : ℝ, hb i = (r : EReal)) (n : Fin 128) (d : Fin 768) :
    matmul dot_S128x512_S512x768_S128x768_1_0_0_1_n_n none (weight idx mk) hb (constant S128x768 .f32 0x00000000#32) (ix2 n d)
      = spanMean (fun s => hb (ix2 s d)) (fun l => idx (ix2 n l)) (fun l => mk (ix2 n l)) := by
  refine (PlainDot.matmul_zero_apply dot_S128x512_S512x768_S128x768_1_0_0_1_n_n rfl rfl rfl rfl rfl rfl rfl rfl none
    (weight idx mk) hb n d).trans ?_
  refine (Finset.sum_congr rfl fun s _ => congrArg (· * hb (ix2 s d)) (weight_apply idx mk n s)).trans ?_
  exact weighted_row (fun s => hb (ix2 s d)) (fun s => hfin _) (fun l => idx (ix2 n l)) (fun l => mk (ix2 n l))
    (fun l => hix _) (fun l => hmk _)

end Cert.KernelIdeal.SpanK

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.KNodeBlock.lean ====
/-
  What the body leaves in the node window's block, entry by entry.

  Row n, class k of the block is  5 · tanh( ∑_d feat(n, d) · W(k, d) + bias(k) ), where feat(n, d) is the masked mean of
  span n over column d of the point's hidden block.
-/
import proofs.«429343_j87797721465415_1_alg».proof.Proof.Gen.KernelIdeal.Value
import proofs.«429343_j87797721465415_1_alg».proof.Proof.KWeight
import proofs.«429343_j87797721465415_1_alg».proof.Proof.LibDotT

noncomputable section

namespace Cert.KernelIdeal.SpanBlock

open Cert.KernelIdeal Cert.KernelIdeal.Gen Idealize.ShloMosaic Idealize.ShloMosaic.ValueIdx Cert.Span

/-- Entry (n, k) of the node block from the point's loads. -/
def nodeBlk (P0 : Vec Ideal S1x512x768 .f32) (P1 P2 : Vec Ideal S1x128x4 .i32) (P3 : Vec Ideal S18x768 .f32)
    (P4 : Vec Ideal S1x18 .f32) (n : Fin 128) (k : Fin 18) : EReal :=
  Ideal.tanh ((∑ d : Fin 768, spanMean (fun s => P0 (ix3 (0 : Fin 1) s d)) (fun l => P1 (ix3 (0 : Fin 1) n l))
      (fun l => P2 (ix3 (0 : Fin 1) n l)) * P3 (ix2 k d)) + P4 (ix2 (0 : Fin 1) k)) * Ideal.ofBits .f32 0x40A00000#32

/-- A table with a leading unit axis dropped, read at (n, l), is the table at (0, n, l). -/
theorem tab_apply (P : Vec Ideal S1x128x4 .i32) (n : Fin 128) (l : Fin 4) :
    shapeCast S128x4 P shapeCasts_S1x128x4_S128x4 (ix2 n l) = P (ix3 (0 : Fin 1) n l) :=
  shapeCast_apply _ _ (ix2 n l) (ix3 (0 : Fin 1) n l) (by
    rw [Shape.rowMajor_val_two, Shape.rowMajor_val_three]
    show ((0 : Fin 1).val * 128 + n.val) * 4 + l.val = n.val * 4 + l.val
    simp)

/-- The hidden block with its leading unit axis dropped, read at (s, d), is the block at (0, s, d). -/
theorem hid_apply (P0 : Vec Ideal S1x512x768 .f32) (s : Fin 512) (d : Fin 768) :
    shapeCast S512x768 P0 shapeCasts_S1x512x768_S512x768 (ix2 s d) = P0 (ix3 (0 : Fin 1) s d) :=
  shapeCast_apply _ _ (ix2 s d) (ix3 (0 : Fin 1) s d) (by
    rw [Shape.rowMajor_val_two, Shape.rowMajor_val_three]
    show ((0 : Fin 1).val * 512 + s.val) * 768 + d.val = s.val * 768 + d.val
    simp)

/-- Every entry of the reshaped index table is an entry of the table, so the range bound carries over. -/
theorem tab_inRange (P1 : Vec Ideal S1x128x4 .i32) (h1 : InRange P1) :
    InRange (shapeCast S128x4 P1 shapeCasts_S1x128x4_S128x4) := fun _ => h1 _

/-- Every entry of the reshaped mask table is an entry of the table, so it is still 0 or 1. -/
theorem tab_mask01 (P2 : Vec Ideal S1x128x4 .i32) (h2 : Mask01 P2) :
    Mask01 (shapeCast S128x4 P2 shapeCasts_S1x128x4_S128x4) := fun _ => h2 _

/-- Every entry of the reshaped, narrowed hidden block is an entry of the block, hence a real. -/
theorem hid_finite (P0 : Vec Ideal S1x512x768 .f32) (h0 : Finite P0) :
    ∀ i, ∃ r : ℝ, (truncf .bf16 (shapeCast S512x768 P0 shapeCasts_S1x512x768_S512x768) bitsLt_bf16_f32 :
      FVec Ideal S512x768 .bf16) i = (r : EReal) := fun _ => h0 _

/-- The span features as the body computes them ARE the span weight of the reshaped tables multiplied into the
    reshaped, narrowed hidden block: both sides are the same tree of vector operations. -/
theorem feat_eq (P0 : Vec Ideal S1x512x768 .f32) (P1 P2 : Vec Ideal S1x128x4 .i32) :
    k0_pay13 (truncf .bf16 (shapeCast S512x768 P0 shapeCasts_S1x512x768_S512x768) bitsLt_bf16_f32) (k0_pay9 P1 P2)
      (addf (addf (addf (broadcast S128x1 (Scalar.ofBits .f32 0x00000000#32)) (sitofp .f32 (extractStridedSlice S128x1 ![0, 0] (shapeCast S128x4 P2 shapeCasts_S1x128x4_S128x4) slices_S128x4_o0_0_S128x1))) (sitofp .f32 (extractStridedSlice S128x1 ![0, 1] (shapeCast S128x4 P2 shapeCasts_S1x128x4_S128x4) slices_S128x4_o0_1_S128x1))) (sitofp .f32 (extractStridedSlice S128x1 ![0, 2] (shapeCast S128x4 P2 shapeCasts_S1x128x4_S128x4) slices_S128x4_o0_2_S128x1)))
      (sitofp .f32 (extractStridedSlice S128x1 ![0, 3] (shapeCast S128x4 P2 shapeCasts_S1x128x4_S128x4) slices_S128x4_o0_3_S128x1))
      (k0_pay12 P1)
    = matmul dot_S128x512_S512x768_S128x768_1_0_0_1_n_n none
        (SpanK.weight (shapeCast S128x4 P1 shapeCasts_S1x128x4_S128x4) (shapeCast S128x4 P2 shapeCasts_S1x128x4_S128x4))
        (truncf .bf16 (shapeCast S512x768 P0 shapeCasts_S1x512x768_S512x768) bitsLt_bf16_f32)
        (constant S128x768 .f32 0x00000000#32) := rfl

/-- Entry (n, d) of the span features is the masked mean of span n over column d of the hidden block. -/
theorem feat_apply (P0 : Vec Ideal S1x512x768 .f32) (P1 P2 : Vec Ideal S1x128x4 .i32)
    (h0 : Finite P0) (h1 : InRange P1) (h2 : Mask01 P2) (n : Fin 128) (d : Fin 768) :
    k0_pay13 (truncf .bf16 (shapeCast S512x768 P0 shapeCasts_S1x512x768_S512x768) bitsLt_bf16_f32) (k0_pay9 P1 P2)
      (addf (addf (addf (broadcast S128x1 (Scalar.ofBits .f32 0x00000000#32)) (sitofp .f32 (extractStridedSlice S128x1 ![0, 0] (shapeCast S128x4 P2 shapeCasts_S1x128x4_S128x4) slices_S128x4_o0_0_S128x1))) (sitofp .f32 (extractStridedSlice S128x1 ![0, 1] (shapeCast S128x4 P2 shapeCasts_S1x128x4_S128x4) slices_S128x4_o0_1_S128x1))) (sitofp .f32 (extractStridedSlice S128x1 ![0, 2] (shapeCast S128x4 P2 shapeCasts_S1x128x4_S128x4) slices_S128x4_o0_2_S128x1)))
      (sitofp .f32 (extractStridedSlice S128x1 ![0, 3] (shapeCast S128x4 P2 shapeCasts_S1x128x4_S128x4) slices_S128x4_o0_3_S128x1))
      (k0_pay12 P1) (ix2 n d)
    = spanMean (fun s => P0 (ix3 (0 : Fin 1) s d)) (fun l => P1 (ix3 (0 : Fin 1) n l)) (fun l => P2 (ix3 (0 : Fin 1) n l)) := by
  rw [feat_eq P0 P1 P2]
  refine (SpanK.weight_matmul _ _ _ (tab_inRange P1 h1) (tab_mask01 P2 h2) (hid_finite P0 h0) n d).trans ?_
  have e0 : (fun s : Fin 512 => (truncf .bf16 (shapeCast S512x768 P0 shapeCasts_S1x512x768_S512x768) bitsLt_bf16_f32 :
      FVec Ideal S512x768 .bf16) (ix2 s d)) = fun s => P0 (ix3 (0 : Fin 1) s d) := funext fun s => hid_apply P0 s d
  have e1 : (fun l : Fin 4 => shapeCast S128x4 P1 shapeCasts_S1x128x4_S128x4 (ix2 n l)) = fun l => P1 (ix3 (0 : Fin 1) n l) :=
    funext fun l => tab_apply P1 n l
  have e2 : (fun l : Fin 4 => shapeCast S128x4 P2 shapeCasts_S1x128x4_S128x4 (ix2 n l)) = fun l => P2 (ix3 (0 : Fin 1) n l) :=
    funext fun l => tab_apply P2 n l
  rw [e0, e1, e2]

/-- The bias row broadcast down the rows, read at entry (n, k). -/
theorem bias_apply (P4 : Vec Ideal S1x18 .f32) (n : Fin 128) (k : Fin 18) :
    broadcastTo S128x18 (shapeCast S1x18 P4 shapeCasts_S1x18_S1x18) broadcasts_S1x18_S128x18 (ix2 n k)
      = P4 (ix2 (0 : Fin 1) k) := by
  refine (broadcastTo_apply _ _ (ix2 n k) (ix2 (0 : Fin 1) k) (fun a => ?_)).trans ?_
  · match a with
    | ⟨0, _⟩ => rfl
    | ⟨1, _⟩ => rfl
  · exact shapeCast_apply _ _ _ _ rfl

/-- The projection, bias, tanh and scale of a feature block, read at entry (n, k). -/
theorem proj_apply (v : FVec Ideal S128x768 .f32) (P3 : Vec Ideal S18x768 .f32) (P4 : Vec Ideal S1x18 .f32)
    (n : Fin 128) (k : Fin 18) :
    k0_pay32 v P3 P4 (ix2 n k)
      = Ideal.tanh ((∑ d : Fin 768, v (ix2 n d) * P3 (ix2 k d)) + P4 (ix2 (0 : Fin 1) k)) * Ideal.ofBits .f32 0x40A00000#32 := by
  unfold k0_pay32
  refine (mulf_apply _ _ _).trans ?_
  rw [broadcast_apply]
  refine congrArg (· * Ideal.ofBits .f32 0x40A00000#32) ?_
  show Ideal.tanh _ = _
  refine congrArg Ideal.tanh ?_
  refine (addf_apply _ _ _).trans ?_
  refine congrArg₂ (· + ·) ?_ (bias_apply P4 n k)
  exact Idealize.ShloMosaic.DotT.matmul_zero_apply dot_S128x768_S18x768_S128x18_1_1_0_0_n_n rfl rfl rfl rfl rfl rfl rfl rfl none
    (truncf .bf16 v bitsLt_bf16_f32) (truncf .bf16 P3 bitsLt_bf16_f32) n k

/-- The index the block index reads the [128, 18] value at is (row, class). -/
theorem ix9_0_eq (y : S1x128x18.Idx) :
    Cert.KernelIdeal.Value.ix9_0 y = ix2 (⟨(y 1).val, (y 1).isLt⟩ : Fin 128) (⟨(y 2).val, (y 2).isLt⟩ : Fin 18) := by
  funext a
  match a with
  | ⟨0, _⟩ => rfl
  | ⟨1, _⟩ => rfl

/-- THE NODE BLOCK at an index: the generated one-function form of the block's pieces, read. -/
theorem node_block (P0 : Vec Ideal S1x512x768 .f32) (P1 P2 : Vec Ideal S1x128x4 .i32) (P3 : Vec Ideal S18x768 .f32)
    (P4 : Vec Ideal S1x18 .f32) (h0 : Finite P0) (h1 : InRange P1) (h2 : Mask01 P2) (y : S1x128x18.Idx) :
    Cert.KernelIdeal.Value.E9 P0 P1 P2 P3 P4 y
      = nodeBlk P0 P1 P2 P3 P4 ⟨(y 1).val, (y 1).isLt⟩ ⟨(y 2).val, (y 2).isLt⟩ := by
  show k0_pay32 _ P3 P4 (Cert.KernelIdeal.Value.ix9_0 y) = _
  rw [ix9_0_eq y]
  refine (proj_apply _ P3 P4 _ _).trans ?_
  unfold nodeBlk
  refine congrArg (· * Ideal.ofBits .f32 0x40A00000#32) (congrArg Ideal.tanh (congrArg (· + _) ?_))
  refine Finset.sum_congr rfl fun d _ => ?_
  rw [feat_apply P0 P1 P2 h0 h1 h2]

end Cert.KernelIdeal.SpanBlock

end
-- ==== Proof.KEdgeBlock.lean ====
/-
  What the body leaves in the edge window's block, entry by entry.

  An edge's feature row is its head span's 768 masked means followed by its tail span's (a concatenation along the columns),
  so column j < 768 belongs to the head span and column j ≥ 768 to the tail span at column j − 768. Row e, class k of the
  block is  5 · tanh( ∑_j feat(e, j) · W(k, j) + bias(k) )  over the 1536 columns.
-/
import proofs.«429343_j87797721465415_1_alg».proof.Proof.Gen.KernelIdeal.Value
import proofs.«429343_j87797721465415_1_alg».proof.Proof.KWeight
import proofs.«429343_j87797721465415_1_alg».proof.Proof.LibDotT
import Idealize.ShloMosaic.Lib.ValueLayout

noncomputable section

namespace Cert.KernelIdeal.SpanBlock

open Cert.KernelIdeal Cert.KernelIdeal.Gen Idealize.ShloMosaic Idealize.ShloMosaic.ValueIdx Cert.Span

/-- The edge window's one stored value, from the point's loads. -/
abbrev pay10 (P0 : Vec Ideal S1x512x768 .f32) (Q1 Q2 : Vec Ideal S1x128x2x4 .i32) (P3 : Vec Ideal S14x1536 .f32)
    (P4 : Vec Ideal S1x14 .f32) : FVec Ideal S1x128x14 .f32 :=
  k0_pay2 (k0_pay31 (k0_pay3 P0) (k0_pay17 Q1) (k0_pay19 Q2) (k0_pay24 (k0_pay16 Q1) (k0_pay18 Q2) (iota .tc S128x512 32 [1] iota_S128x512_d1_w32) (k0_pay21 Q2) (k0_pay22 Q2) (k0_pay23 Q1 Q2)) (iota .tc S128x512 32 [1] iota_S128x512_d1_w32) (k0_pay27 (F := Ideal) (k0_pay17 Q1) (k0_pay19 Q2)) (k0_pay28 (F := Ideal) (k0_pay19 Q2)) (k0_pay29 (F := Ideal) (k0_pay19 Q2)) (k0_pay30 (k0_pay17 Q1)) P3 P4)

/-- Entry (e, k) of the edge block from the point's loads. -/
def edgeBlk (P0 : Vec Ideal S1x512x768 .f32) (Q1 Q2 : Vec Ideal S1x128x2x4 .i32) (P3 : Vec Ideal S14x1536 .f32)
    (P4 : Vec Ideal S1x14 .f32) (e : Fin 128) (k : Fin 14) : EReal :=
  Ideal.tanh ((∑ j : Fin 1536,
      spanMean (fun s => P0 (ix3 (0 : Fin 1) s ⟨j.val % 768, Nat.mod_lt _ (by decide)⟩))
        (fun l => Q1 (ix4 (0 : Fin 1) e ⟨j.val / 768, by have := j.isLt; omega⟩ l))
        (fun l => Q2 (ix4 (0 : Fin 1) e ⟨j.val / 768, by have := j.isLt; omega⟩ l)) * P3 (ix2 k j))
    + P4 (ix2 (0 : Fin 1) k)) * Ideal.ofBits .f32 0x40A00000#32

/-! ## The layout reads of the loads, entry by entry -/

/-- The index (or mask) table with its unit batch axis dropped. -/
theorem pay14_apply (Q : Vec Ideal S1x128x2x4 .i32) (e : Fin 128) (c : Fin 2) (l : Fin 4) :
    k0_pay14 Q (ix3 e c l) = Q (ix4 (0 : Fin 1) e c l) :=
  shapeCast_1abc_abc_apply Q shapeCasts_S1x128x2x4_S128x2x4 e c l

theorem pay15_apply (Q : Vec Ideal S1x128x2x4 .i32) (e : Fin 128) (c : Fin 2) (l : Fin 4) :
    k0_pay15 Q (ix3 e c l) = Q (ix4 (0 : Fin 1) e c l) :=
  shapeCast_1abc_abc_apply Q shapeCasts_S1x128x2x4_S128x2x4 e c l

/-- A [128, 1, 4] array viewed [128, 4]. -/
theorem cast_1x4 {α : Type} (x : S128x1x4.Idx → α) (e : Fin 128) (l : Fin 4) :
    shapeCast S128x4 x shapeCasts_S128x1x4_S128x4 (ix2 e l) = x (ix3 e (0 : Fin 1) l) :=
  shapeCast_apply x _ _ _ (by
    rw [Shape.rowMajor_val_three, Shape.rowMajor_val_two]
    show (e.val * 1 + 0) * 4 + l.val = e.val * 4 + l.val
    omega)

/-- The head endpoint's slice of a [128, 2, 4] table. -/
theorem slice_head {α : Type} (x : S128x2x4.Idx → α) (e : Fin 128) (l : Fin 4) :
    extractStridedSlice S128x1x4 ![0, 0, 0] x slices_S128x2x4_o0_0_0_S128x1x4 (ix3 e (0 : Fin 1) l) = x (ix3 e (0 : Fin 2) l) :=
  extractStridedSlice_apply _ x _ _ _ (fun a => by
    match a with
    | ⟨0, _⟩ => exact (Nat.zero_add _).symm
    | ⟨1, _⟩ => rfl
    | ⟨2, _⟩ => exact (Nat.zero_add _).symm)

/-- The tail endpoint's slice of a [128, 2, 4] table. -/
theorem slice_tail {α : Type} (x : S128x2x4.Idx → α) (e : Fin 128) (l : Fin 4) :
    extractStridedSlice S128x1x4 ![0, 1, 0] x slices_S128x2x4_o0_1_0_S128x1x4 (ix3 e (0 : Fin 1) l) = x (ix3 e (1 : Fin 2) l) :=
  extractStridedSlice_apply _ x _ _ _ (fun a => by
    match a with
    | ⟨0, _⟩ => exact (Nat.zero_add _).symm
    | ⟨1, _⟩ => rfl
    | ⟨2, _⟩ => exact (Nat.zero_add _).symm)

theorem pay16_apply (Q : Vec Ideal S1x128x2x4 .i32) (e : Fin 128) (l : Fin 4) :
    k0_pay16 Q (ix2 e l) = Q (ix4 (0 : Fin 1) e (0 : Fin 2) l) :=
  (cast_1x4 _ e l).trans ((slice_head _ e l).trans (pay14_apply Q e 0 l))

theorem pay17_apply (Q : Vec Ideal S1x128x2x4 .i32) (e : Fin 128) (l : Fin 4) :
    k0_pay17 Q (ix2 e l) = Q (ix4 (0 : Fin 1) e (1 : Fin 2) l) :=
  (cast_1x4 _ e l).trans ((slice_tail _ e l).trans (pay14_apply Q e 1 l))

theorem pay18_apply (Q : Vec Ideal S1x128x2x4 .i32) (e : Fin 128) (l : Fin 4) :
    k0_pay18 Q (ix2 e l) = Q (ix4 (0 : Fin 1) e (0 : Fin 2) l) :=
  (cast_1x4 _ e l).trans ((slice_head _ e l).trans (pay15_apply Q e 0 l))

theorem pay19_apply (Q : Vec Ideal S1x128x2x4 .i32) (e : Fin 128) (l : Fin 4) :
    k0_pay19 Q (ix2 e l) = Q (ix4 (0 : Fin 1) e (1 : Fin 2) l) :=
  (cast_1x4 _ e l).trans ((slice_tail _ e l).trans (pay15_apply Q e 1 l))

/-- The hidden block with its unit batch axis dropped (the rounding is the identity at the ideal values). -/
theorem pay3_apply (P0 : Vec Ideal S1x512x768 .f32) (s : Fin 512) (d : Fin 768) :
    k0_pay3 P0 (ix2 s d) = P0 (ix3 (0 : Fin 1) s d) :=
  shapeCast_1ab_ab_apply P0 shapeCasts_S1x512x768_S512x768 s d

/-! ## The endpoint tables keep the ranges of the loads -/

/-- A [128, 4] table whose entries are entries of the load, endpoint c, is in range when the load is. -/
theorem inRange_of_entries (x : IVec S128x4 32) (Q : Vec Ideal S1x128x2x4 .i32) (c : Fin 2)
    (hx : ∀ (e : Fin 128) (l : Fin 4), x (ix2 e l) = Q (ix4 (0 : Fin 1) e c l)) (h : InRange Q) : InRange x := fun i => by
  have e : x i = Q (ix4 (0 : Fin 1) (i 0) c (i 1)) := (congrArg x (eq_ix2 i)).trans (hx (i 0) (i 1))
  show (x i).toNat < 512
  rw [e]
  exact h _

/-- The same for a 0/1 mask. -/
theorem mask01_of_entries (x : IVec S128x4 32) (Q : Vec Ideal S1x128x2x4 .i32) (c : Fin 2)
    (hx : ∀ (e : Fin 128) (l : Fin 4), x (ix2 e l) = Q (ix4 (0 : Fin 1) e c l)) (h : Mask01 Q) : Mask01 x := fun i => by
  have e : x i = Q (ix4 (0 : Fin 1) (i 0) c (i 1)) := (congrArg x (eq_ix2 i)).trans (hx (i 0) (i 1))
  show (x i).toNat ≤ 1
  rw [e]
  exact h _

/-- The hidden block's entries are real when the load's are. -/
theorem pay3_finite (P0 : Vec Ideal S1x512x768 .f32) (h0 : Finite P0) : ∀ i, ∃ r : ℝ, k0_pay3 P0 i = (r : EReal) := fun i => by
  obtain ⟨r, hr⟩ := h0 (ix3 (0 : Fin 1) (i 0) (i 1))
  exact ⟨r, ((congrArg (k0_pay3 P0) (eq_ix2 i)).trans (pay3_apply P0 (i 0) (i 1))).trans hr⟩

/-! ## One endpoint's feature -/

/-- Column d of endpoint c of edge e: the masked mean of that span over column d of the hidden block. -/
def featAt (P0 : Vec Ideal S1x512x768 .f32) (Q1 Q2 : Vec Ideal S1x128x2x4 .i32) (e : Fin 128) (c : Fin 2) (d : Fin 768) : EReal :=
  spanMean (fun s => P0 (ix3 (0 : Fin 1) s d)) (fun l => Q1 (ix4 (0 : Fin 1) e c l)) (fun l => Q2 (ix4 (0 : Fin 1) e c l))

/-- The weight of an endpoint's tables against the hidden block, at an entry. -/
theorem feat_of_entries (P0 : Vec Ideal S1x512x768 .f32) (Q1 Q2 : Vec Ideal S1x128x2x4 .i32) (h0 : Finite P0) (h1 : InRange Q1)
    (h2 : Mask01 Q2) (idx mk : IVec S128x4 32) (c : Fin 2)
    (hidx : ∀ (e : Fin 128) (l : Fin 4), idx (ix2 e l) = Q1 (ix4 (0 : Fin 1) e c l))
    (hmk : ∀ (e : Fin 128) (l : Fin 4), mk (ix2 e l) = Q2 (ix4 (0 : Fin 1) e c l)) (e : Fin 128) (d : Fin 768) :
    matmul dot_S128x512_S512x768_S128x768_1_0_0_1_n_n none (SpanK.weight idx mk) (k0_pay3 P0)
      (constant S128x768 .f32 0x00000000#32) (ix2 e d) = featAt P0 Q1 Q2 e c d := by
  refine (SpanK.weight_matmul idx mk (k0_pay3 P0) (inRange_of_entries idx Q1 c hidx h1) (mask01_of_entries mk Q2 c hmk h2)
    (pay3_finite P0 h0) e d).trans ?_
  have a : (fun s => k0_pay3 P0 (ix2 s d)) = fun s => P0 (ix3 (0 : Fin 1) s d) := funext fun s => pay3_apply P0 s d
  have b : (fun l => idx (ix2 e l)) = fun l => Q1 (ix4 (0 : Fin 1) e c l) := funext fun l => hidx e l
  have c' : (fun l => mk (ix2 e l)) = fun l => Q2 (ix4 (0 : Fin 1) e c l) := funext fun l => hmk e l
  rw [a, b, c']
  rfl

/-! ## The product against the transposed weights, and the concatenation, at an entry -/

/-- The [128, 1536] × [14, 1536]ᵀ product into the zero accumulator, at entry (e, k). -/
theorem dotT_apply (l : FVec Ideal S128x1536 .bf16) (r : FVec Ideal S14x1536 .bf16) (e : Fin 128) (k : Fin 14) :
    matmul dot_S128x1536_S14x1536_S128x14_1_1_0_0_n_n none l r (constant S128x14 .f32 0x00000000#32) (ix2 e k)
      = ∑ j : Fin 1536, l (ix2 e j) * r (ix2 k j) :=
  Idealize.ShloMosaic.DotT.matmul_zero_apply dot_S128x1536_S14x1536_S128x14_1_1_0_0_n_n rfl rfl rfl rfl rfl rfl rfl rfl
    none l r e k

/-- A column below 768 of the concatenation is that column of the first piece. -/
theorem concat_left (x₁ x₂ : FVec Ideal S128x768 .f32) (e : Fin 128) (j : Fin 1536) (hj : j.val < 768) :
    concatenate S128x1536 1 [⟨S128x768, x₁⟩, ⟨S128x768, x₂⟩] concatenates_S128x768_S128x768_S128x1536_d1 (ix2 e j)
      = x₁ (ix2 e ⟨j.val, hj⟩) :=
  concatenate_pair_apply_left 1 x₁ x₂ _ (ix2 e j) rfl (ix2 e ⟨j.val, hj⟩) (fun b => by
    match b with
    | ⟨0, _⟩ => rfl
    | ⟨1, _⟩ => rfl)

/-- A column from 768 on is column j − 768 of the second piece. -/
theorem concat_right (x₁ x₂ : FVec Ideal S128x768 .f32) (e : Fin 128) (j : Fin 1536) (hj : 768 ≤ j.val) :
    concatenate S128x1536 1 [⟨S128x768, x₁⟩, ⟨S128x768, x₂⟩] concatenates_S128x768_S128x768_S128x1536_d1 (ix2 e j)
      = x₂ (ix2 e ⟨j.val - 768, by have := j.isLt; omega⟩) :=
  concatenate_pair_apply_right 1 x₁ x₂ _ (ix2 e j) rfl rfl (ix2 e ⟨j.val - 768, by have := j.isLt; omega⟩)
    (fun b hb => by
      match b, hb with
      | ⟨0, _⟩, _ => rfl
      | ⟨1, _⟩, hb => exact absurd rfl hb)
    (by show (j.val - 768) + 768 = j.val; omega)

/-! ## The block before its unit batch axis is added -/

/-- The [128, 14] value the body computes: 5 · tanh(features · Wᵀ + bias). -/
def blk2 (P0 : Vec Ideal S1x512x768 .f32) (Q1 Q2 : Vec Ideal S1x128x2x4 .i32) (P3 : Vec Ideal S14x1536 .f32)
    (P4 : Vec Ideal S1x14 .f32) : FVec Ideal S128x14 .f32 :=
  mulf (tanh (addf
      (matmul dot_S128x1536_S14x1536_S128x14_1_1_0_0_n_n none
        (truncf .bf16 (concatenate S128x1536 1
          [⟨S128x768, matmul dot_S128x512_S512x768_S128x768_1_0_0_1_n_n none (SpanK.weight (k0_pay16 Q1) (k0_pay18 Q2)) (k0_pay3 P0) (constant S128x768 .f32 0x00000000#32)⟩,
           ⟨S128x768, matmul dot_S128x512_S512x768_S128x768_1_0_0_1_n_n none (SpanK.weight (k0_pay17 Q1) (k0_pay19 Q2)) (k0_pay3 P0) (constant S128x768 .f32 0x00000000#32)⟩]
          concatenates_S128x768_S128x768_S128x1536_d1) bitsLt_bf16_f32)
        (truncf .bf16 P3 bitsLt_bf16_f32) (constant S128x14 .f32 0x00000000#32))
      (broadcastTo S128x14 (shapeCast S1x14 P4 shapeCasts_S1x14_S1x14) broadcasts_S1x14_S128x14)))
    (broadcast S128x14 (Scalar.ofBits .f32 0x40A00000#32))

/-- The stored value is that block with a unit batch axis in front (each weight's four-term sums are associated from the
    left, as in the weight's definition). -/
theorem pay10_eq (P0 : Vec Ideal S1x512x768 .f32) (Q1 Q2 : Vec Ideal S1x128x2x4 .i32) (P3 : Vec Ideal S14x1536 .f32)
    (P4 : Vec Ideal S1x14 .f32) :
    pay10 P0 Q1 Q2 P3 P4 = shapeCast S1x128x14 (blk2 P0 Q1 Q2 P3 P4) shapeCasts_S128x14_S1x128x14 := rfl

/-- Column j of edge e's feature row: the head span's mean below 768, the tail span's from 768 on. -/
theorem edge_col_apply (P0 : Vec Ideal S1x512x768 .f32) (Q1 Q2 : Vec Ideal S1x128x2x4 .i32) (h0 : Finite P0) (h1 : InRange Q1)
    (h2 : Mask01 Q2) (e : Fin 128) (j : Fin 1536) :
    concatenate S128x1536 1
        [⟨S128x768, matmul dot_S128x512_S512x768_S128x768_1_0_0_1_n_n none (SpanK.weight (k0_pay16 Q1) (k0_pay18 Q2)) (k0_pay3 P0) (constant S128x768 .f32 0x00000000#32)⟩,
         ⟨S128x768, matmul dot_S128x512_S512x768_S128x768_1_0_0_1_n_n none (SpanK.weight (k0_pay17 Q1) (k0_pay19 Q2)) (k0_pay3 P0) (constant S128x768 .f32 0x00000000#32)⟩]
        concatenates_S128x768_S128x768_S128x1536_d1 (ix2 e j)
      = featAt P0 Q1 Q2 e ⟨j.val / 768, by have := j.isLt; omega⟩ ⟨j.val % 768, Nat.mod_lt _ (by decide)⟩ := by
  by_cases hj : j.val < 768
  · refine (concat_left _ _ e j hj).trans ((feat_of_entries P0 Q1 Q2 h0 h1 h2 (k0_pay16 Q1) (k0_pay18 Q2) 0
      (pay16_apply Q1) (pay18_apply Q2) e ⟨j.val, hj⟩).trans ?_)
    exact congrArg₂ (featAt P0 Q1 Q2 e) (Fin.ext (Nat.div_eq_of_lt hj).symm) (Fin.ext (Nat.mod_eq_of_lt hj).symm)
  · have hj' : 768 ≤ j.val := Nat.le_of_not_lt hj
    have hlt := j.isLt
    refine (concat_right _ _ e j hj').trans ((feat_of_entries P0 Q1 Q2 h0 h1 h2 (k0_pay17 Q1) (k0_pay19 Q2) 1
      (pay17_apply Q1) (pay19_apply Q2) e ⟨j.val - 768, by omega⟩).trans ?_)
    exact congrArg₂ (featAt P0 Q1 Q2 e) (Fin.ext (by show 1 = j.val / 768; omega)) (Fin.ext (by show j.val - 768 = j.val % 768; omega))

/-- ENTRY (e, k) of the [128, 14] block. -/
theorem blk2_apply (P0 : Vec Ideal S1x512x768 .f32) (Q1 Q2 : Vec Ideal S1x128x2x4 .i32) (P3 : Vec Ideal S14x1536 .f32)
    (P4 : Vec Ideal S1x14 .f32) (h0 : Finite P0) (h1 : InRange Q1) (h2 : Mask01 Q2) (e : Fin 128) (k : Fin 14) :
    blk2 P0 Q1 Q2 P3 P4 (ix2 e k) = edgeBlk P0 Q1 Q2 P3 P4 e k := by
  have hsum : matmul dot_S128x1536_S14x1536_S128x14_1_1_0_0_n_n none
        (truncf .bf16 (concatenate S128x1536 1
          [⟨S128x768, matmul dot_S128x512_S512x768_S128x768_1_0_0_1_n_n none (SpanK.weight (k0_pay16 Q1) (k0_pay18 Q2)) (k0_pay3 P0) (constant S128x768 .f32 0x00000000#32)⟩,
           ⟨S128x768, matmul dot_S128x512_S512x768_S128x768_1_0_0_1_n_n none (SpanK.weight (k0_pay17 Q1) (k0_pay19 Q2)) (k0_pay3 P0) (constant S128x768 .f32 0x00000000#32)⟩]
          concatenates_S128x768_S128x768_S128x1536_d1) bitsLt_bf16_f32)
        (truncf .bf16 P3 bitsLt_bf16_f32) (constant S128x14 .f32 0x00000000#32) (ix2 e k)
      = ∑ j : Fin 1536, featAt P0 Q1 Q2 e ⟨j.val / 768, by have := j.isLt; omega⟩ ⟨j.val % 768, Nat.mod_lt _ (by decide)⟩
          * P3 (ix2 k j) :=
    (dotT_apply _ _ e k).trans (Finset.sum_congr rfl fun j _ =>
      congrArg (· * P3 (ix2 k j)) (edge_col_apply P0 Q1 Q2 h0 h1 h2 e j))
  have hbias : broadcastTo S128x14 (shapeCast S1x14 P4 shapeCasts_S1x14_S1x14) broadcasts_S1x14_S128x14 (ix2 e k)
      = P4 (ix2 (0 : Fin 1) k) :=
    (broadcastTo_1b_ab_apply _ _ e k).trans (congrFun (shapeCast_self P4 _) _)
  show Ideal.tanh (_ + _) * Ideal.ofBits .f32 0x40A00000#32 = _
  rw [hsum, hbias]
  rfl

/-- THE EDGE BLOCK at an index. -/
theorem edge_block (P0 : Vec Ideal S1x512x768 .f32) (Q1 Q2 : Vec Ideal S1x128x2x4 .i32) (P3 : Vec Ideal S14x1536 .f32)
    (P4 : Vec Ideal S1x14 .f32) (h0 : Finite P0) (h1 : InRange Q1) (h2 : Mask01 Q2) (y : S1x128x14.Idx) :
    pay10 P0 Q1 Q2 P3 P4 y = edgeBlk P0 Q1 Q2 P3 P4 ⟨(y 1).val, (y 1).isLt⟩ ⟨(y 2).val, (y 2).isLt⟩ := by
  refine (congrFun (pay10_eq P0 Q1 Q2 P3 P4) y).trans ?_
  refine (shapeCast_apply _ _ y (ix2 ⟨(y 1).val, (y 1).isLt⟩ ⟨(y 2).val, (y 2).isLt⟩) ?_).trans
    (blk2_apply P0 Q1 Q2 P3 P4 h0 h1 h2 _ _)
  have hy : (y 0).val < 1 := (y 0).isLt
  rw [Shape.rowMajor_val_two, Shape.rowMajor_val_three]
  show (y 1).val * 14 + (y 2).val = ((y 0).val * 128 + (y 1).val) * 14 + (y 2).val
  omega

end Cert.KernelIdeal.SpanBlock

end
-- ==== Proof.KArray.lean ====
/-
  From blocks to arrays: what the two result arrays hold after the run.

  The grid has one point per batch b. Point b reads block b of the hidden states, of the four integer tables, and the whole of
  the two weight matrices and the two bias rows, and writes block b of each result. So the node array is, entry (b, n, k), the
  node block's entry (n, k) computed from batch b's slices of the arguments, and the 32 blocks cover the array.
-/
import proofs.«429343_j87797721465415_1_alg».proof.Proof.Gen.KernelIdeal.Value
import proofs.«429343_j87797721465415_1_alg».proof.Proof.KNodeBlock
import proofs.«429343_j87797721465415_1_alg».proof.Proof.KEdgeBlock

noncomputable section

namespace Cert.KernelIdeal.SpanValue

open Cert.KernelIdeal Cert.KernelIdeal.Gen Idealize.ShloMosaic Idealize.ShloMosaic.TcCoe Idealize.SL.Sem
open Idealize.ShloMosaic.ValueIdx Cert.Span
open Idealize.ShloMosaic.Pipeline (Dat)

variable (m : (ℓ : Loc nD τ sig) → Buf (Elt Ideal) ℓ) (ρ : Dev nD → PrngReg)

/-- Offsets written as a literal row of zeros are the zero function (ranks 2, 3 and 4). -/
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The index maps over the grid: point t takes block t along the batch axis of the per-batch windows and block 0 on every
    other axis; the weight and bias windows stay at block 0. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- The grid has one point per batch. -/
theorem grid_lt (t : Fin cfg0.N) : t.val < 32 :=
  lt_of_lt_of_eq t.isLt (show cfg0.N = 32 from N_0)

/-- The batch a grid point works on. -/
def batch (t : Fin cfg0.N) : Fin 32 := ⟨t.val, grid_lt t⟩

/-- Point t's hidden block is batch t's slice of the hidden states. -/
theorem hid_blk (c : Dev nD) (t : Fin cfg0.N) (s : Fin 512) (d : Fin 768) :
    (iblk m c 0 t : Vec Ideal S1x512x768 .f32) (ix3 (0 : Fin 1) s d) = V m c main_arg0 (ix3 (batch t) s d) := by
  obtain ⟨⟨e0, e1, e2⟩, -⟩ := block_index t
  show V m c main_arg0 (((cfg0.win 0).blk t).view.emb (ix3 (0 : Fin 1) s d)) = V m c main_arg0 (ix3 (batch t) s d)
  congr 1
  funext a; apply Fin.ext
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 768 + 1 * d.val = d.val; omega

/-- Point t's block of the node position table is batch t's slice of it. -/
theorem nix_blk (c : Dev nD) (t : Fin cfg0.N) (n : Fin 128) (l : Fin 4) :
    (iblk m c 1 t : Vec Ideal S1x128x4 .i32) (ix3 (0 : Fin 1) n l) = V m c main_arg1 (ix3 (batch t) n l) := by
  obtain ⟨-, ⟨e0, e1, e2⟩, -⟩ := block_index t
  show V m c main_arg1 (((cfg0.win 1).blk t).view.emb (ix3 (0 : Fin 1) n l)) = V m c main_arg1 (ix3 (batch t) n l)
  congr 1
  funext a; apply Fin.ext
  match a with
  | ⟨0, _⟩ => show win0_1.index t (0 : Fin 3) * 1 + 1 * 0 = t.val; omega
  | ⟨1, _⟩ => show win0_1.index t (1 : Fin 3) * 128 + 1 * n.val = n.val; omega
  | ⟨2, _⟩ => show win0_1.index t (2 : Fin 3) * 4 + 1 * l.val = l.val; omega

/-- Point t's block of the node mask table is batch t's slice of it. -/
theorem nmk_blk (c : Dev nD) (t : Fin cfg0.N) (n : Fin 128) (l : Fin 4) :
    (iblk m c 2 t : Vec Ideal S1x128x4 .i32) (ix3 (0 : Fin 1) n l) = V m c main_arg2 (ix3 (batch t) n l) := by
  obtain ⟨-, -, ⟨e0, e1, e2⟩, -⟩ := block_index t
  show V m c main_arg2 (((cfg0.win 2).blk t).view.emb (ix3 (0 : Fin 1) n l)) = V m c main_arg2 (ix3 (batch t) n l)
  congr 1
  funext a; apply Fin.ext
  match a with
  | ⟨0, _⟩ => show win0_2.index t (0 : Fin 3) * 1 + 1 * 0 = t.val; omega
  | ⟨1, _⟩ => show win0_2.index t (1 : Fin 3) * 128 + 1 * n.val = n.val; omega
  | ⟨2, _⟩ => show win0_2.index t (2 : Fin 3) * 4 + 1 * l.val = l.val; omega

/-- Every point's block of the node weight matrix is the whole matrix. -/
theorem nW_blk (c : Dev nD) (t : Fin cfg0.N) (k : Fin 18) (d : Fin 768) :
    (iblk m c 5 t : Vec Ideal S18x768 .f32) (ix2 k d) = V m c main_arg5 (ix2 k d) := by
  obtain ⟨-, -, -, -, -, ⟨e0, e1⟩, -⟩ := block_index t
  show V m c main_arg5 (((cfg0.win 5).blk t).view.emb (ix2 k d)) = V m c main_arg5 (ix2 k d)
  congr 1
  funext a; apply Fin.ext
  match a with
  | ⟨0, _⟩ => show win0_5.index t (0 : Fin 2) * 18 + 1 * k.val = k.val; omega
  | ⟨1, _⟩ => show win0_5.index t (1 : Fin 2) * 768 + 1 * d.val = d.val; omega

/-- The node bias row as the region finds it: the bias argument with a unit axis in front. -/
theorem V_nbias (c : Dev nD) :
    (V m c main_v0 : S1x18.Idx → EReal) = shapeCast S1x18 (m ((c : Thread nD τ).loc main_arg6)) shapeCasts_S18_S1x18 := by
  dsimp only [Gen.V, Gen.hostOps0]; after_results; rfl

/-- Every point's block of the node bias row is the bias argument. -/
theorem nbias_blk (c : Dev nD) (t : Fin cfg0.N) (k : Fin 18) :
    (iblk m c 6 t : Vec Ideal S1x18 .f32) (ix2 (0 : Fin 1) k) = m ((c : Thread nD τ).loc main_arg6) (ix1 k) := by
  obtain ⟨-, -, -, -, -, -, ⟨e0, e1⟩, -⟩ := block_index t
  show (V m c main_v0 : S1x18.Idx → EReal) (((cfg0.win 6).blk t).view.emb (ix2 (0 : Fin 1) k)) = _
  rw [V_nbias]
  refine shapeCast_apply _ _ _ (ix1 k) ?_
  rw [Shape.rowMajor_val_one, Shape.rowMajor_val_two]
  show k.val = (win0_6.index t (0 : Fin 2) * 1 + 1 * 0) * 18 + (win0_6.index t (1 : Fin 2) * 18 + 1 * k.val)
  omega

/-- Entry (n, k) of the node block at point t is node n of batch t, class k. -/
theorem nodeBlk_at (c : Dev nD) (t : Fin cfg0.N) (n : Fin 128) (k : Fin 18) :
    SpanBlock.nodeBlk (iblk m c 0 t) (iblk m c 1 t) (iblk m c 2 t) (iblk m c 5 t) (iblk m c 6 t) n k
      = nodeAt (V m c main_arg0) (V m c main_arg1) (V m c main_arg2) (V m c main_arg5)
          (m ((c : Thread nD τ).loc main_arg6)) (batch t) n k := by
  unfold SpanBlock.nodeBlk nodeAt
  simp only [hid_blk, nix_blk, nmk_blk, nW_blk, nbias_blk]

/-- WHAT POINT t WRITES BACK to the node array is block t of the node scores of the arguments as the region finds them. -/
theorem flushed9_eq (c : Dev nD) (t : Fin cfg0.N)
    (h0 : Finite (V m c main_arg0)) (h1 : InRange (V m c main_arg1)) (h2 : Mask01 (V m c main_arg2)) :
    (dats m 0 c).flushed 9 t = ((cfg0.win 9).blk t).view.read (Elt Ideal)
      (nodeG (V m c main_arg0) (V m c main_arg1) (V m c main_arg2) (V m c main_arg5) (m ((c : Thread nD τ).loc main_arg6))) := by
  rw [Value.flushed9]
  unfold out0_9
  funext y
  simp only [View.ld_unit_zero (S := S1x512x768) zeros3, View.ld_unit_zero (S := S1x128x4) zeros3, View.ld_unit_zero (S := S18x768) zeros2, View.ld_unit_zero (S := S1x18) zeros2]
  refine (Value.canon9_eq (iblk m c 0 t) (iblk m c 1 t) (iblk m c 2 t) (iblk m c 5 t) (iblk m c 6 t) y).trans ?_
  refine (SpanBlock.node_block (iblk m c 0 t) (iblk m c 1 t) (iblk m c 2 t) (iblk m c 5 t) (iblk m c 6 t)
    (fun i => h0 _) (fun i => h1 _) (fun i => h2 _) y).trans ?_
  rw [nodeBlk_at]
  obtain ⟨-, -, -, -, -, -, -, -, -, ⟨e0, e1, e2⟩, -⟩ := block_index t
  have hy0 : (y 0).val < 1 := (y 0).isLt
  show _ = nodeG (V m c main_arg0) (V m c main_arg1) (V m c main_arg2) (V m c main_arg5) (m ((c : Thread nD τ).loc main_arg6))
    (((cfg0.win 9).blk t).view.emb y)
  unfold nodeG
  congr 1 <;> apply Fin.ext
  · show t.val = win0_9.index t (0 : Fin 3) * 1 + 1 * (y 0).val; omega
  · show (y 1).val = win0_9.index t (1 : Fin 3) * 128 + 1 * (y 1).val; omega
  · show (y 2).val = win0_9.index t (2 : Fin 3) * 18 + 1 * (y 2).val; omega

/-- An entry of the node array is in point t's block iff each coordinate is in the block's range on its axis. -/
theorem mem_blk9 (t : Fin cfg0.N) (i : S32x128x18.Idx) :
    i ∈ ((cfg0.win 9).blk t).view.set ↔ ∀ a : Fin 3, win0_9.index t a * S1x128x18.size a ≤ (i a).val
      ∧ (i a).val < win0_9.index t a * S1x128x18.size a + S1x128x18.size a := by
  show i ∈ ((View.whole main_v2_0).slice (win0_9.rect t)).set ↔ _
  rw [View.set_slice_whole, Rect.mem_set_unit]
  exact Iff.rfl

/-- Entry (b, n, k) of the node array is in the block of point b, and every point writes its block back. -/
theorem cover9 (i : S32x128x18.Idx) :
    ∃ t : Fin cfg0.N, (cfg0.win 9).flush t = true ∧ i ∈ ((cfg0.win 9).blk t).view.set := by
  have hi0 : (i 0).val < 32 := (i 0).isLt
  have hi1 : (i 1).val < 128 := (i 1).isLt
  have hi2 : (i 2).val < 18 := (i 2).isLt
  obtain ⟨t, ht⟩ : ∃ t : Fin cfg0.N, t.val = (i 0).val :=
    ⟨⟨(i 0).val, lt_of_lt_of_eq hi0 (show (32 : Nat) = cfg0.N from N_0.symm)⟩, rfl⟩
  refine ⟨t, flush0_9 t, ?_⟩
  obtain ⟨-, -, -, -, -, -, -, -, -, ⟨e0, e1, e2⟩, -⟩ := block_index t
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 18 ≤ (i 2).val ∧ (i 2).val < win0_9.index t (2 : Fin 3) * 18 + 18; omega

/-- THE NODE ARRAY after the run. -/
theorem final9 (c : Dev nD) (h0 : Finite (m ((c : Thread nD τ).loc main_arg0)))
    (h1 : InRange (m ((c : Thread nD τ).loc main_arg1))) (h2 : Mask01 (m ((c : Thread nD τ).loc main_arg2))) :
    (dats m 0 c).arrAt 9 cfg0.N = nodeG (m ((c : Thread nD τ).loc main_arg0)) (m ((c : Thread nD τ).loc main_arg1))
      (m ((c : Thread nD τ).loc main_arg2)) (m ((c : Thread nD τ).loc main_arg5)) (m ((c : Thread nD τ).loc main_arg6)) := by
  have e := (dats m 0 c).arrAt_eq_of_cover 9
    (nodeG (V m c main_arg0) (V m c main_arg1) (V m c main_arg2) (V m c main_arg5) (m ((c : Thread nD τ).loc main_arg6)))
    (fun t _ => flushed9_eq m c t (by rw [V_main_arg0]; exact h0) (by rw [V_main_arg1]; exact h1) (by rw [V_main_arg2]; exact h2))
    cover9
  rw [V_main_arg0, V_main_arg1, V_main_arg2, V_main_arg5] at e
  exact e

/-- Point t's block of the edge position table is batch t's slice of it. -/
theorem eix_blk (c : Dev nD) (t : Fin cfg0.N) (e : Fin 128) (r : Fin 2) (l : Fin 4) :
    (iblk m c 3 t : Vec Ideal S1x128x2x4 .i32) (ix4 (0 : Fin 1) e r l) = V m c main_arg3 (ix4 (batch t) e r l) := by
  obtain ⟨-, -, -, ⟨e0, e1, e2, e3⟩, -⟩ := block_index t
  show V m c main_arg3 (((cfg0.win 3).blk t).view.emb (ix4 (0 : Fin 1) e r l)) = V m c main_arg3 (ix4 (batch t) e r l)
  congr 1
  funext a; apply Fin.ext
  match a with
  | ⟨0, _⟩ => show win0_3.index t (0 : Fin 4) * 1 + 1 * 0 = t.val; omega
  | ⟨1, _⟩ => show win0_3.index t (1 : Fin 4) * 128 + 1 * e.val = e.val; omega
  | ⟨2, _⟩ => show win0_3.index t (2 : Fin 4) * 2 + 1 * r.val = r.val; omega
  | ⟨3, _⟩ => show win0_3.index t (3 : Fin 4) * 4 + 1 * l.val = l.val; omega

/-- Point t's block of the edge mask table is batch t's slice of it. -/
theorem emk_blk (c : Dev nD) (t : Fin cfg0.N) (e : Fin 128) (r : Fin 2) (l : Fin 4) :
    (iblk m c 4 t : Vec Ideal S1x128x2x4 .i32) (ix4 (0 : Fin 1) e r l) = V m c main_arg4 (ix4 (batch t) e r l) := by
  obtain ⟨-, -, -, -, ⟨e0, e1, e2, e3⟩, -⟩ := block_index t
  show V m c main_arg4 (((cfg0.win 4).blk t).view.emb (ix4 (0 : Fin 1) e r l)) = V m c main_arg4 (ix4 (batch t) e r l)
  congr 1
  funext a; apply Fin.ext
  match a with
  | ⟨0, _⟩ => show win0_4.index t (0 : Fin 4) * 1 + 1 * 0 = t.val; omega
  | ⟨1, _⟩ => show win0_4.index t (1 : Fin 4) * 128 + 1 * e.val = e.val; omega
  | ⟨2, _⟩ => show win0_4.index t (2 : Fin 4) * 2 + 1 * r.val = r.val; omega
  | ⟨3, _⟩ => show win0_4.index t (3 : Fin 4) * 4 + 1 * l.val = l.val; omega

/-- Every point's block of the edge weight matrix is the whole matrix. -/
theorem eW_blk (c : Dev nD) (t : Fin cfg0.N) (k : Fin 14) (j : Fin 1536) :
    (iblk m c 7 t : Vec Ideal S14x1536 .f32) (ix2 k j) = V m c main_arg7 (ix2 k j) := by
  obtain ⟨-, -, -, -, -, -, -, ⟨e0, e1⟩, -⟩ := block_index t
  show V m c main_arg7 (((cfg0.win 7).blk t).view.emb (ix2 k j)) = V m c main_arg7 (ix2 k j)
  congr 1
  funext a; apply Fin.ext
  match a with
  | ⟨0, _⟩ => show win0_7.index t (0 : Fin 2) * 14 + 1 * k.val = k.val; omega
  | ⟨1, _⟩ => show win0_7.index t (1 : Fin 2) * 1536 + 1 * j.val = j.val; omega

/-- The edge bias row as the region finds it: the bias argument with a unit axis in front. -/
theorem V_ebias (c : Dev nD) :
    (V m c main_v1 : S1x14.Idx → EReal) = shapeCast S1x14 (m ((c : Thread nD τ).loc main_arg8)) shapeCasts_S14_S1x14 := by
  dsimp only [Gen.V, Gen.hostOps0]; after_results; rfl

/-- Every point's block of the edge bias row is the bias argument. -/
theorem ebias_blk (c : Dev nD) (t : Fin cfg0.N) (k : Fin 14) :
    (iblk m c 8 t : Vec Ideal S1x14 .f32) (ix2 (0 : Fin 1) k) = m ((c : Thread nD τ).loc main_arg8) (ix1 k) := by
  obtain ⟨-, -, -, -, -, -, -, -, ⟨e0, e1⟩, -⟩ := block_index t
  show (V m c main_v1 : S1x14.Idx → EReal) (((cfg0.win 8).blk t).view.emb (ix2 (0 : Fin 1) k)) = _
  rw [V_ebias]
  refine shapeCast_apply _ _ _ (ix1 k) ?_
  rw [Shape.rowMajor_val_one, Shape.rowMajor_val_two]
  show k.val = (win0_8.index t (0 : Fin 2) * 1 + 1 * 0) * 14 + (win0_8.index t (1 : Fin 2) * 14 + 1 * k.val)
  omega

/-- Entry (e, k) of the edge block at point t is edge e of batch t, class k. -/
theorem edgeBlk_at (c : Dev nD) (t : Fin cfg0.N) (e : Fin 128) (k : Fin 14) :
    SpanBlock.edgeBlk (iblk m c 0 t) (iblk m c 3 t) (iblk m c 4 t) (iblk m c 7 t) (iblk m c 8 t) e k
      = edgeAt (V m c main_arg0) (V m c main_arg3) (V m c main_arg4) (V m c main_arg7)
          (m ((c : Thread nD τ).loc main_arg8)) (batch t) e k := by
  unfold SpanBlock.edgeBlk edgeAt edgeFeat
  simp only [hid_blk, eix_blk, emk_blk, eW_blk, ebias_blk]

/-- WHAT POINT t WRITES BACK to the edge array is block t of the edge scores of the arguments as the region finds them. -/
theorem flushed10_eq (c : Dev nD) (t : Fin cfg0.N)
    (h0 : Finite (V m c main_arg0)) (h3 : InRange (V m c main_arg3)) (h4 : Mask01 (V m c main_arg4)) :
    (dats m 0 c).flushed 10 t = ((cfg0.win 10).blk t).view.read (Elt Ideal)
      (edgeG (V m c main_arg0) (V m c main_arg3) (V m c main_arg4) (V m c main_arg7) (m ((c : Thread nD τ).loc main_arg8))) := by
  rw [Value.flushed10]
  unfold out0_10
  rw [View.canon_unit_zero zeros3]
  simp only [View.ld_unit_zero (S := S1x512x768) zeros3, View.ld_unit_zero (S := S1x128x2x4) zeros4, View.ld_unit_zero (S := S14x1536) zeros2, View.ld_unit_zero (S := S1x14) zeros2]
  funext y
  refine (SpanBlock.edge_block (iblk m c 0 t) (iblk m c 3 t) (iblk m c 4 t) (iblk m c 7 t) (iblk m c 8 t)
    (fun i => h0 _) (fun i => h3 _) (fun i => h4 _) y).trans ?_
  rw [edgeBlk_at]
  obtain ⟨-, -, -, -, -, -, -, -, -, -, ⟨e0, e1, e2⟩⟩ := block_index t
  have hy0 : (y 0).val < 1 := (y 0).isLt
  show _ = edgeG (V m c main_arg0) (V m c main_arg3) (V m c main_arg4) (V m c main_arg7) (m ((c : Thread nD τ).loc main_arg8))
    (((cfg0.win 10).blk t).view.emb y)
  unfold edgeG
  congr 1 <;> apply Fin.ext
  · show t.val = win0_10.index t (0 : Fin 3) * 1 + 1 * (y 0).val; omega
  · show (y 1).val = win0_10.index t (1 : Fin 3) * 128 + 1 * (y 1).val; omega
  · show (y 2).val = win0_10.index t (2 : Fin 3) * 14 + 1 * (y 2).val; omega

/-- An entry of the edge array is in point t's block iff each coordinate is in the block's range on its axis. -/
theorem mem_blk10 (t : Fin cfg0.N) (i : S32x128x14.Idx) :
    i ∈ ((cfg0.win 10).blk t).view.set ↔ ∀ a : Fin 3, win0_10.index t a * S1x128x14.size a ≤ (i a).val
      ∧ (i a).val < win0_10.index t a * S1x128x14.size a + S1x128x14.size a := by
  show i ∈ ((View.whole main_v2_1).slice (win0_10.rect t)).set ↔ _
  rw [View.set_slice_whole, Rect.mem_set_unit]
  exact Iff.rfl

/-- Entry (b, e, k) of the edge array is in the block of point b, and every point writes its block back. -/
theorem cover10 (i : S32x128x14.Idx) :
    ∃ t : Fin cfg0.N, (cfg0.win 10).flush t = true ∧ i ∈ ((cfg0.win 10).blk t).view.set := by
  have hi0 : (i 0).val < 32 := (i 0).isLt
  have hi1 : (i 1).val < 128 := (i 1).isLt
  have hi2 : (i 2).val < 14 := (i 2).isLt
  obtain ⟨t, ht⟩ : ∃ t : Fin cfg0.N, t.val = (i 0).val :=
    ⟨⟨(i 0).val, lt_of_lt_of_eq hi0 (show (32 : Nat) = cfg0.N from N_0.symm)⟩, rfl⟩
  refine ⟨t, flush0_10 t, ?_⟩
  obtain ⟨-, -, -, -, -, -, -, -, -, -, ⟨e0, e1, e2⟩⟩ := block_index t
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 128 ≤ (i 1).val ∧ (i 1).val < win0_10.index t (1 : Fin 3) * 128 + 128; omega
  | ⟨2, _⟩ => show win0_10.index t (2 : Fin 3) * 14 ≤ (i 2).val ∧ (i 2).val < win0_10.index t (2 : Fin 3) * 14 + 14; omega

/-- THE EDGE ARRAY after the run. -/
theorem final10 (c : Dev nD) (h0 : Finite (m ((c : Thread nD τ).loc main_arg0)))
    (h3 : InRange (m ((c : Thread nD τ).loc main_arg3))) (h4 : Mask01 (m ((c : Thread nD τ).loc main_arg4))) :
    (dats m 0 c).arrAt 10 cfg0.N = edgeG (m ((c : Thread nD τ).loc main_arg0)) (m ((c : Thread nD τ).loc main_arg3))
      (m ((c : Thread nD τ).loc main_arg4)) (m ((c : Thread nD τ).loc main_arg7)) (m ((c : Thread nD τ).loc main_arg8)) := by
  have e := (dats m 0 c).arrAt_eq_of_cover 10
    (edgeG (V m c main_arg0) (V m c main_arg3) (V m c main_arg4) (V m c main_arg7) (m ((c : Thread nD τ).loc main_arg8)))
    (fun t _ => flushed10_eq m c t (by rw [V_main_arg0]; exact h0) (by rw [V_main_arg3]; exact h3) (by rw [V_main_arg4]; exact h4))
    cover10
  rw [V_main_arg0, V_main_arg3, V_main_arg4, V_main_arg7] at e
  exact e

/-- The run re-posted: each result array at its function of the arguments, the arguments unchanged. -/
theorem run (hyp : ∀ c : Dev nD, Finite (m ((c : Thread nD τ).loc main_arg0)) ∧ InRange (m ((c : Thread nD τ).loc main_arg1))
      ∧ Mask01 (m ((c : Thread nD τ).loc main_arg2)) ∧ InRange (m ((c : Thread nD τ).loc main_arg3))
      ∧ Mask01 (m ((c : Thread nD τ).loc main_arg4))) :
    θ_run defs (onTc (τ := τ) (main (F := Ideal))) ⟨m, fun _ => 0, ρ⟩ fun r => ∀ c : Dev nD,
      r.2.mem ((c : Thread nD τ).loc main_v2_0) = nodeG (m ((c : Thread nD τ).loc main_arg0)) (m ((c : Thread nD τ).loc main_arg1))
        (m ((c : Thread nD τ).loc main_arg2)) (m ((c : Thread nD τ).loc main_arg5)) (m ((c : Thread nD τ).loc main_arg6))
      ∧ r.2.mem ((c : Thread nD τ).loc main_v2_1) = edgeG (m ((c : Thread nD τ).loc main_arg0)) (m ((c : Thread nD τ).loc main_arg3))
        (m ((c : Thread nD τ).loc main_arg4)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
      obtain ⟨h0, h1, h2, h3, h4⟩ := hyp c
      obtain ⟨e9, e10, k0, k1, k2, k3, k4, k5, k6, k7, k8⟩ := h c
      exact ⟨e9.trans (final9 m c h0 h1 h2), e10.trans (final10 m c h0 h3 h4), k0, k1, k2, k3, k4, k5, k6, k7, k8⟩)
    (Cert.KernelIdeal.Value.run_blocks m ρ)

end Cert.KernelIdeal.SpanValue

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.RefGather.lean ====
/-
  The reference's two data-dependent stages, read under the precondition.

  take_along_axis: jnp wraps a negative index by the axis extent, tests the wrapped index against [0, 511], gathers, and puts
  a fill value where the test fails. With every index word already in [0, 512) nothing wraps, every test passes, and row j of
  batch b of the result is the hidden row at the position the j-th index word names.
  The count: the four mask words of a span are added as words and the larger of the sum and 1 is converted to a float. With
  masks 0 or 1 the word sum is the number of ones, so the count is the larger of the real sum of the masks and 1.
-/
import proofs.«429343_j87797721465415_1_alg».proof.Proof.RefReadP
import proofs.«429343_j87797721465415_1_alg».proof.Proof.SpanLaw
import proofs.«429343_j87797721465415_1_alg».proof.Proof.LibTake
import Idealize.ShloMosaic.Lib.Pipeline.Value
import Idealize.ShloMosaic.Lib.StableHlo.Predicate

noncomputable section

namespace Cert.ReferenceIdeal.SpanRef

open Cert.ReferenceIdeal Cert.ReferenceIdeal.Gen Idealize.ShloMosaic Idealize.ShloMosaic.ValueIdx Cert.Span
open Cert.ReferenceIdeal.ReadP

/-! ## The counts -/

/-- The source index over the result index (b, n) of the node word sum with slot l inserted is (b, n, l). -/
theorem lift_node (h : S32x128x4.Reduces [2] S32x128) (b : Fin 32) (n : Fin 128) (l : Fin 4) :
    h.lift (ix2 b n) l = ix3 b n l := by
  funext c
  refine Fin.ext ?_
  show Shape.Reduces.liftVal h (ix2 b n) l.val c = (ix3 b n l c).val
  unfold Shape.Reduces.liftVal
  match c with
  | ⟨0, _⟩ => rfl
  | ⟨1, _⟩ => rfl
  | ⟨2, _⟩ => rfl

/-- Four words that are each 0 or 1 sum to at most 4. -/
theorem sum_four_le (f : Fin 4 → BitVec 32) (hf : ∀ l, (f l).toNat ≤ 1) : ∑ l : Fin 4, (f l).toNat < 2 ^ 32 := by
  rw [Fin.sum_univ_four]
  have h0 := hf 0; have h1 := hf 1; have h2 := hf 2; have h3 := hf 3
  omega

/-- THE NODE WORD SUM of span (b, n): with masks 0 or 1 nothing wraps, and the word sum is the sum of the four mask values. -/
theorem sum_node (x2 : IVec S32x128x4 32) (h2 : Mask01 x2) (b : Fin 32) (n : Fin 128) :
    (val_main_v6 (F := Ideal) x2 (ix2 b n)).toNat = ∑ l : Fin 4, (x2 (ix3 b n l)).toNat := by
  have hr : S32x128x4.Reduces [2] S32x128 := by decide
  unfold val_main_v6
  rw [Host.reduce_eq_fold_single IntOp.addi x2 _ reducesTo_S32x128x4_S32x128_d2 hr h_S_ (ix2 b n)]
  show ((Finset.univ : Finset (Fin 4)).fold IntOp.addi 0#32 (x2 ∘ hr.lift (ix2 b n))).toNat = _
  have hf : (x2 ∘ hr.lift (ix2 b n)) = fun l : Fin 4 => x2 (ix3 b n l) := by
    funext l
    exact congrArg x2 (lift_node hr b n l)
  rw [hf]
  exact StableHlo.Predicate.toNat_fold_addi Finset.univ _ (sum_four_le _ (fun l => h2 _))

/-- The source index over the result index (b, e, p) of the edge word sum with slot l inserted is (b, e, p, l). -/
theorem lift_edge (h : S32x128x2x4.Reduces [3] S32x128x2) (b : Fin 32) (e : Fin 128) (p : Fin 2) (l : Fin 4) :
    h.lift (ix3 b e p) l = ix4 b e p l := by
  funext c
  refine Fin.ext ?_
  show Shape.Reduces.liftVal h (ix3 b e p) l.val c = (ix4 b e p l c).val
  unfold Shape.Reduces.liftVal
  match c with
  | ⟨0, _⟩ => rfl
  | ⟨1, _⟩ => rfl
  | ⟨2, _⟩ => rfl
  | ⟨3, _⟩ => rfl

/-- THE EDGE WORD SUM of span (b, e, p): the sum of the four mask values. -/
theorem sum_edge (x4 : IVec S32x128x2x4 32) (h4 : Mask01 x4) (b : Fin 32) (e : Fin 128) (p : Fin 2) :
    (val_main_v22 (F := Ideal) x4 (ix3 b e p)).toNat = ∑ l : Fin 4, (x4 (ix4 b e p l)).toNat := by
  have hr : S32x128x2x4.Reduces [3] S32x128x2 := by decide
  unfold val_main_v22
  rw [Host.reduce_eq_fold_single IntOp.addi x4 _ reducesTo_S32x128x2x4_S32x128x2_d3 hr h_S_ (ix3 b e p)]
  show ((Finset.univ : Finset (Fin 4)).fold IntOp.addi 0#32 (x4 ∘ hr.lift (ix3 b e p))).toNat = _
  have hf : (x4 ∘ hr.lift (ix3 b e p)) = fun l : Fin 4 => x4 (ix4 b e p l) := by
    funext l
    exact congrArg x4 (lift_edge hr b e p l)
  rw [hf]
  exact StableHlo.Predicate.toNat_fold_addi Finset.univ _ (sum_four_le _ (fun l => h4 _))

/-! ## The node gather -/

/-- The node index word at row j of batch b is slot j % 4 of span j / 4. -/
theorem idx_node (x1 : IVec S32x128x4 32) (b : Fin 32) (j : Fin 512) (z : Fin 1) :
    val_main_v1 (F := Ideal) x1 (ix3 b j z)
      = x1 (ix3 b ⟨j.val / 4, by have := j.isLt; omega⟩ ⟨j.val % 4, Nat.mod_lt _ (by decide)⟩) := by
  rw [val_main_v1_apply, val_main_v0_apply]
  refine congrArg x1 ?_
  funext a
  match a with
  | ⟨0, _⟩ => exact Fin.ext (by show (b.val * 512 + j.val) / 512 = b.val; have := j.isLt; omega)
  | ⟨1, _⟩ => exact Fin.ext (by show (b.val * 512 + j.val) / 4 % 128 = j.val / 4; have := j.isLt; omega)
  | ⟨2, _⟩ => exact Fin.ext (by show (b.val * 512 + j.val) % 4 = j.val % 4; omega)

/-- Every node index word is one of the given words, so it is below 512. -/
theorem idx_node_lt (x1 : IVec S32x128x4 32) (h1 : InRange x1) (i : S32x512x1.Idx) :
    (val_main_v1 (F := Ideal) x1 i).toNat < 512 := by
  rw [val_main_v1_apply, val_main_v0_apply]
  exact h1 _

/-- No node index word is negative, so the wrap returns the words themselves. -/
theorem wrap_node (x1 : IVec S32x128x4 32) (h1 : InRange x1) :
    val_main_call0_v4 (F := Ideal) x1 = val_main_v1 (F := Ideal) x1 := by
  unfold val_main_call0_v4
  apply Cert.LibTake.select_none
  intro i
  show ¬ IntOp.cmpi .slt (val_main_v1 (F := Ideal) x1 i) (val_main_call0_v0 (F := Ideal) i) = 1#1
  rw [val_main_call0_v0_apply, val_main_call0_c_apply]
  have hr := idx_node_lt x1 h1 i
  rw [StableHlo.Predicate.slt_iff_toNat (by omega) (by decide)]
  simp

/-- Every node index word passes both range tests, so the row mask is 1 everywhere. -/
theorem mask_node (x1 : IVec S32x128x4 32) (h1 : InRange x1) (j : S32x512.Idx) :
    val_main_call0_v11 (F := Ideal) x1 j = 1#1 := by
  unfold val_main_call0_v11
  refine Cert.LibTake.reduce_andi_ones _ _ _ _ ?_ rfl j
  intro i
  show IntOp.andi (IntOp.cmpi .sge (val_main_call0_v4 (F := Ideal) x1 i) (val_main_call0_v5 (F := Ideal) i))
      (IntOp.cmpi .sle (val_main_call0_v4 (F := Ideal) x1 i) (val_main_call0_v8 (F := Ideal) i)) = 1#1
  rw [wrap_node x1 h1, val_main_call0_v5_apply, val_main_call0_c_2_apply, val_main_call0_v8_apply, val_main_call0_v7_apply,
    val_main_call0_c_1_apply]
  have hr := idx_node_lt x1 h1 i
  rw [IntOp.andi_eq_one, StableHlo.Predicate.sge_iff_toNat (by omega) (by decide),
    StableHlo.Predicate.sle_iff_toNat (by omega) (by decide)]
  exact ⟨Nat.zero_le _, by show _ ≤ 511; omega⟩

local notation "G₀" => gather_S32x512x768_S32x512x1_S32x512x768_2_1_0_0_1_2_11768

/-- THE GATHER READ AT (b, j, d): batch b of the table, at the row its start word names (read signed and clamped to
    [0, 511]), column d. -/
theorem gather_node (x0 : FVec Ideal S32x512x768 .f32) (idx : IVec S32x512x1 32) (b : Fin 32) (j : Fin 512) (d : Fin 768) :
    Host.gather G₀ x0 idx (ix3 b j d) = x0 (ix3 b ⟨min (idx (ix3 b j 0)).toInt.toNat 511, by omega⟩ d) := by
  unfold Host.gather
  refine congrArg x0 ?_
  funext a
  refine Fin.ext ?_
  show GatherDims.start G₀ (ix3 b j d) idx a + GatherDims.batchCoord G₀ (ix3 b j d) a + GatherDims.offCoord G₀ (ix3 b j d) a = _
  match a with
  | ⟨0, h⟩ =>
    -- the batching axis: the batch coordinate alone
    rw [GatherDims.start_batching _ _ _ _ (List.mem_singleton.mpr rfl),
      GatherDims.offCoord_eq_zero _ _ _ (fun hm => ((GatherDims.mem_sKept _ _).mp hm).2 (List.mem_singleton.mpr rfl)),
      Nat.zero_add, Nat.add_zero]
    rfl
  | ⟨1, h⟩ =>
    -- the collapsed axis: the clamped start word alone
    rw [GatherDims.batchCoord_eq_zero _ _ _
        (fun hm => absurd (congrArg Fin.val (List.mem_singleton.mp hm)) Nat.one_ne_zero),
      GatherDims.offCoord_eq_zero _ _ _ (fun hm => ((GatherDims.mem_sKept _ _).mp hm).1 (List.mem_singleton.mpr rfl)),
      Nat.add_zero]
    unfold GatherDims.start
    rw [dif_pos (show (⟨1, h⟩ : Fin S32x512x768.rank) ∈ GatherDims.startIndexMap G₀ from List.mem_singleton.mpr rfl)]
    have hsi : GatherDims.siIdx G₀ (ix3 b j d) ⟨List.idxOf (⟨1, h⟩ : Fin S32x512x768.rank) (GatherDims.startIndexMap G₀),
        List.idxOf_lt_length_iff.2 (List.mem_singleton.mpr rfl)⟩ = ix3 b j 0 := by
      funext c
      refine Fin.ext ?_
      match c with
      | ⟨0, _⟩ => rfl
      | ⟨1, _⟩ => rfl
      | ⟨2, _⟩ => rfl
    rw [hsi]
    rfl
  | ⟨2, h⟩ =>
    -- the offset axis: the offset coordinate alone
    rw [GatherDims.batchCoord_eq_zero _ _ _
        (fun hm => absurd (congrArg Fin.val (List.mem_singleton.mp hm)) (show ¬ (2 : Nat) = 0 by decide)),
      Nat.add_zero]
    unfold GatherDims.start
    rw [dif_neg (fun (hm : (⟨2, h⟩ : Fin S32x512x768.rank) ∈ GatherDims.startIndexMap G₀) =>
        absurd (congrArg Fin.val (List.mem_singleton.mp hm)) (show ¬ (2 : Nat) = 1 by decide)),
      Nat.zero_add]
    rfl

/-- A start word below 512, read signed and clamped to [0, 511], is the position it names. -/
theorem clamp_pos (w : BitVec 32) (hw : w.toNat < 512) :
    (⟨min w.toInt.toNat 511, by omega⟩ : Fin 512) = pos w := by
  refine Fin.ext ?_
  show min w.toInt.toNat 511 = w.toNat % 512
  rw [StableHlo.Predicate.toInt_eq_toNat_of_lt (by omega), Int.toNat_natCast]
  omega

/-- THE NODE GATHER: row j of batch b is the hidden row its index word names (span j / 4, slot j % 4). -/
theorem take_node (x0 : FVec Ideal S32x512x768 .f32) (x1 : IVec S32x128x4 32) (h1 : InRange x1)
    (b : Fin 32) (j : Fin 512) (d : Fin 768) :
    val_main_v2 (F := Ideal) x0 x1 (ix3 b j d)
      = x0 (ix3 b (pos (x1 (ix3 b ⟨j.val / 4, by have := j.isLt; omega⟩ ⟨j.val % 4, Nat.mod_lt _ (by decide)⟩))) d) := by
  rw [val_main_v2_apply, val_main_call0_v13_apply, mask_node x1 h1, select_one]
  unfold val_main_call0_v12
  rw [wrap_node x1 h1]
  refine (gather_node x0 _ b j d).trans ?_
  refine congrArg x0 ?_
  refine congrArg (fun p : Fin 512 => ix3 b p d) ?_
  refine (clamp_pos _ (idx_node_lt x1 h1 _)).trans ?_
  exact congrArg pos (idx_node x1 b j 0)

/-! ## The edge gather -/

/-- The edge index word at row j of batch b is slot j % 4 of end (j / 4) % 2 of edge j / 8. -/
theorem idx_edge (x3 : IVec S32x128x2x4 32) (b : Fin 32) (j : Fin 1024) (z : Fin 1) :
    val_main_v17 (F := Ideal) x3 (ix3 b j z)
      = x3 (ix4 b ⟨j.val / 8, by have := j.isLt; omega⟩ ⟨j.val / 4 % 2, Nat.mod_lt _ (by decide)⟩
          ⟨j.val % 4, Nat.mod_lt _ (by decide)⟩) := by
  rw [val_main_v17_apply, val_main_v16_apply]
  refine congrArg x3 ?_
  funext a
  match a with
  | ⟨0, _⟩ => exact Fin.ext (by show (b.val * 1024 + j.val) / 1024 = b.val; have := j.isLt; omega)
  | ⟨1, _⟩ => exact Fin.ext (by show (b.val * 1024 + j.val) / 8 % 128 = j.val / 8; have := j.isLt; omega)
  | ⟨2, _⟩ => exact Fin.ext (by show (b.val * 1024 + j.val) / 4 % 2 = j.val / 4 % 2; omega)
  | ⟨3, _⟩ => exact Fin.ext (by show (b.val * 1024 + j.val) % 4 = j.val % 4; omega)

/-- Every edge index word is one of the given words, so it is below 512. -/
theorem idx_edge_lt (x3 : IVec S32x128x2x4 32) (h3 : InRange x3) (i : S32x1024x1.Idx) :
    (val_main_v17 (F := Ideal) x3 i).toNat < 512 := by
  rw [val_main_v17_apply, val_main_v16_apply]
  exact h3 _

/-- No edge index word is negative, so the wrap returns the words themselves. -/
theorem wrap_edge (x3 : IVec S32x128x2x4 32) (h3 : InRange x3) :
    val_main_call1_v4 (F := Ideal) x3 = val_main_v17 (F := Ideal) x3 := by
  unfold val_main_call1_v4
  apply Cert.LibTake.select_none
  intro i
  show ¬ IntOp.cmpi .slt (val_main_v17 (F := Ideal) x3 i) (val_main_call1_v0 (F := Ideal) i) = 1#1
  rw [val_main_call1_v0_apply, val_main_call1_c_apply]
  have hr := idx_edge_lt x3 h3 i
  rw [StableHlo.Predicate.slt_iff_toNat (by omega) (by decide)]
  simp

/-- Every edge index word passes both range tests, so the row mask is 1 everywhere. -/
theorem mask_edge (x3 : IVec S32x128x2x4 32) (h3 : InRange x3) (j : S32x1024.Idx) :
    val_main_call1_v11 (F := Ideal) x3 j = 1#1 := by
  unfold val_main_call1_v11
  refine Cert.LibTake.reduce_andi_ones _ _ _ _ ?_ rfl j
  intro i
  show IntOp.andi (IntOp.cmpi .sge (val_main_call1_v4 (F := Ideal) x3 i) (val_main_call1_v5 (F := Ideal) i))
      (IntOp.cmpi .sle (val_main_call1_v4 (F := Ideal) x3 i) (val_main_call1_v8 (F := Ideal) i)) = 1#1
  rw [wrap_edge x3 h3, val_main_call1_v5_apply, val_main_call1_c_2_apply, val_main_call1_v8_apply, val_main_call1_v7_apply,
    val_main_call1_c_1_apply]
  have hr := idx_edge_lt x3 h3 i
  rw [IntOp.andi_eq_one, StableHlo.Predicate.sge_iff_toNat (by omega) (by decide),
    StableHlo.Predicate.sle_iff_toNat (by omega) (by decide)]
  exact ⟨Nat.zero_le _, by show _ ≤ 511; omega⟩

local notation "G₁" => gather_S32x512x768_S32x1024x1_S32x1024x768_2_1_0_0_1_2_11768

/-- THE EDGE GATHER READ AT (b, j, d): batch b of the table, at the row its start word names (read signed and clamped
    to [0, 511]), column d. -/
theorem gather_edge (x0 : FVec Ideal S32x512x768 .f32) (idx : IVec S32x1024x1 32) (b : Fin 32) (j : Fin 1024) (d : Fin 768) :
    Host.gather G₁ x0 idx (ix3 b j d) = x0 (ix3 b ⟨min (idx (ix3 b j 0)).toInt.toNat 511, by omega⟩ d) := by
  unfold Host.gather
  refine congrArg x0 ?_
  funext a
  refine Fin.ext ?_
  show GatherDims.start G₁ (ix3 b j d) idx a + GatherDims.batchCoord G₁ (ix3 b j d) a + GatherDims.offCoord G₁ (ix3 b j d) a = _
  match a with
  | ⟨0, h⟩ =>
    -- the batching axis: the batch coordinate alone
    rw [GatherDims.start_batching _ _ _ _ (List.mem_singleton.mpr rfl),
      GatherDims.offCoord_eq_zero _ _ _ (fun hm => ((GatherDims.mem_sKept _ _).mp hm).2 (List.mem_singleton.mpr rfl)),
      Nat.zero_add, Nat.add_zero]
    rfl
  | ⟨1, h⟩ =>
    -- the collapsed axis: the clamped start word alone
    rw [GatherDims.batchCoord_eq_zero _ _ _
        (fun hm => absurd (congrArg Fin.val (List.mem_singleton.mp hm)) Nat.one_ne_zero),
      GatherDims.offCoord_eq_zero _ _ _ (fun hm => ((GatherDims.mem_sKept _ _).mp hm).1 (List.mem_singleton.mpr rfl)),
      Nat.add_zero]
    unfold GatherDims.start
    rw [dif_pos (show (⟨1, h⟩ : Fin S32x512x768.rank) ∈ GatherDims.startIndexMap G₁ from List.mem_singleton.mpr rfl)]
    have hsi : GatherDims.siIdx G₁ (ix3 b j d) ⟨List.idxOf (⟨1, h⟩ : Fin S32x512x768.rank) (GatherDims.startIndexMap G₁),
        List.idxOf_lt_length_iff.2 (List.mem_singleton.mpr rfl)⟩ = ix3 b j 0 := by
      funext c
      refine Fin.ext ?_
      match c with
      | ⟨0, _⟩ => rfl
      | ⟨1, _⟩ => rfl
      | ⟨2, _⟩ => rfl
    rw [hsi]
    rfl
  | ⟨2, h⟩ =>
    -- the offset axis: the offset coordinate alone
    rw [GatherDims.batchCoord_eq_zero _ _ _
        (fun hm => absurd (congrArg Fin.val (List.mem_singleton.mp hm)) (show ¬ (2 : Nat) = 0 by decide)),
      Nat.add_zero]
    unfold GatherDims.start
    rw [dif_neg (fun (hm : (⟨2, h⟩ : Fin S32x512x768.rank) ∈ GatherDims.startIndexMap G₁) =>
        absurd (congrArg Fin.val (List.mem_singleton.mp hm)) (show ¬ (2 : Nat) = 1 by decide)),
      Nat.zero_add]
    rfl

/-- THE EDGE GATHER: row j of batch b (edge j / 8, end (j / 4) % 2, slot j % 4). -/
theorem take_edge (x0 : FVec Ideal S32x512x768 .f32) (x3 : IVec S32x128x2x4 32) (h3 : InRange x3)
    (b : Fin 32) (j : Fin 1024) (d : Fin 768) :
    val_main_v18 (F := Ideal) x0 x3 (ix3 b j d)
      = x0 (ix3 b (pos (x3 (ix4 b ⟨j.val / 8, by have := j.isLt; omega⟩ ⟨j.val / 4 % 2, Nat.mod_lt _ (by decide)⟩
          ⟨j.val % 4, Nat.mod_lt _ (by decide)⟩))) d) := by
  rw [val_main_v18_apply, val_main_call1_v13_apply, mask_edge x3 h3, select_one]
  unfold val_main_call1_v12
  rw [wrap_edge x3 h3]
  refine (gather_edge x0 _ b j d).trans ?_
  refine congrArg x0 ?_
  refine congrArg (fun p : Fin 512 => ix3 b p d) ?_
  refine (clamp_pos _ (idx_edge_lt x3 h3 _)).trans ?_
  exact congrArg pos (idx_edge x3 b j 0)

/-- THE NODE COUNT of span (b, n). -/
theorem cnt_node (x2 : IVec S32x128x4 32) (h2 : Mask01 x2) (b : Fin 32) (n : Fin 128) :
    val_main_v9 (F := Ideal) x2 (ix2 b n) = max (∑ l : Fin 4, wR (x2 (ix3 b n l))) 1 := by
  show wR (IntOp.maxsi (val_main_v6 (F := Ideal) x2 (ix2 b n)) (val_main_v7 (F := Ideal) (ix2 b n))) = _
  rw [val_main_v7_apply, val_main_c_0_apply]
  exact count_eq (fun l => x2 (ix3 b n l)) (fun l => h2 _) _ (sum_node x2 h2 b n)

/-- THE EDGE COUNT of span (b, e, p). -/
theorem cnt_edge (x4 : IVec S32x128x2x4 32) (h4 : Mask01 x4) (b : Fin 32) (e : Fin 128) (p : Fin 2) :
    val_main_v25 (F := Ideal) x4 (ix3 b e p) = max (∑ l : Fin 4, wR (x4 (ix4 b e p l))) 1 := by
  show wR (IntOp.maxsi (val_main_v22 (F := Ideal) x4 (ix3 b e p)) (val_main_v23 (F := Ideal) (ix3 b e p))) = _
  rw [val_main_v23_apply, val_main_c_2_apply]
  exact count_eq (fun l => x4 (ix4 b e p l)) (fun l => h4 _) _ (sum_edge x4 h4 b e p)

end Cert.ReferenceIdeal.SpanRef

end
-- ==== Proof.RefValue.lean ====
/-
  The reference's two results are the span-pooling heads.

  Stage by stage: the gathered rows times the masks, summed over the four slots, divided by the count, is the masked mean; the
  edge means of head and tail are laid side by side by a reshape [2, 768] → [1536]; a contraction over the columns with the
  weight matrix, the bias added, tanh, times 5.
-/
import proofs.«429343_j87797721465415_1_alg».proof.Proof.RefGather

noncomputable section

namespace Cert.ReferenceIdeal.SpanRef

open Cert.ReferenceIdeal Cert.ReferenceIdeal.Gen Idealize.ShloMosaic Idealize.ShloMosaic.ValueIdx Cert.Span
open Cert.ReferenceIdeal.ReadP

/-! ## The node side, one stage at a time -/

/-- The reshape [32, 512, 768] → [32, 128, 4, 768] reads row n·4 + l of the gathered rows. -/
theorem idx_v3_eq (b : Fin 32) (n : Fin 128) (l : Fin 4) (d : Fin 768) :
    idx_main_v3 (ix4 b n l d) = ix3 b (⟨n.val * 4 + l.val, by omega⟩ : Fin 512) d := by
  have hb := b.isLt; have hn := n.isLt; have hl := l.isLt; have hd := d.isLt
  funext a
  apply Fin.ext
  match a with
  | ⟨0, _⟩ => show (((b.val * 128 + n.val) * 4 + l.val) * 768 + d.val) / 393216 = b.val; omega
  | ⟨1, _⟩ => show (((b.val * 128 + n.val) * 4 + l.val) * 768 + d.val) / 768 % 512 = n.val * 4 + l.val; omega
  | ⟨2, _⟩ => show (((b.val * 128 + n.val) * 4 + l.val) * 768 + d.val) % 768 = d.val; omega

/-- Slot l of span (b, n), column d, of the gathered rows: the hidden row at the position the index word names. -/
theorem v3_entry (x0 : FVec Ideal S32x512x768 .f32) (x1 : IVec S32x128x4 32) (h1 : InRange x1)
    (b : Fin 32) (n : Fin 128) (l : Fin 4) (d : Fin 768) :
    val_main_v3 (F := Ideal) x0 x1 (ix4 b n l d) = x0 (ix3 b (pos (x1 (ix3 b n l))) d) := by
  rw [val_main_v3_apply, idx_v3_eq]
  refine (take_node x0 x1 h1 b _ d).trans ?_
  have hn := n.isLt; have hl := l.isLt
  refine congrArg (fun p => x0 (ix3 b (pos (x1 p)) d)) ?_
  exact congrArg₂ (fun (u : Fin 128) (v : Fin 4) => ix3 b u v) (Fin.ext (by show (n.val * 4 + l.val) / 4 = n.val; omega))
    (Fin.ext (by show (n.val * 4 + l.val) % 4 = l.val; omega))

/-- The mask of slot l of span (b, n), as a float, at any column. -/
theorem v11_entry (x2 : IVec S32x128x4 32) (b : Fin 32) (n : Fin 128) (l : Fin 4) (d : Fin 768) :
    val_main_v11 (F := Ideal) x2 (ix4 b n l d) = wR (x2 (ix3 b n l)) := by
  rw [val_main_v11_apply, val_main_v5_apply, val_main_v4_apply]
  have e : idx_main_v5 (idx_main_v11 (ix4 b n l d)) = ix3 b n l :=
    funext fun a => Fin.ext (by match a with | ⟨0, _⟩ => rfl | ⟨1, _⟩ => rfl | ⟨2, _⟩ => rfl)
  rw [e]; rfl

/-- The count of span (b, n), at any column. -/
theorem v14_entry (x2 : IVec S32x128x4 32) (h2 : Mask01 x2) (b : Fin 32) (n : Fin 128) (d : Fin 768) :
    val_main_v14 (F := Ideal) x2 (ix3 b n d) = max (∑ l : Fin 4, wR (x2 (ix3 b n l))) 1 := by
  rw [val_main_v14_apply, val_main_v10_apply]
  have e : idx_main_v10 (idx_main_v14 (ix3 b n d)) = ix2 b n :=
    funext fun a => Fin.ext (by match a with | ⟨0, _⟩ => rfl | ⟨1, _⟩ => rfl)
  rw [e]; exact cnt_node x2 h2 b n

/-- The masked sum of span (b, n) over column d. -/
theorem v13_entry (x0 : FVec Ideal S32x512x768 .f32) (x1 x2 : IVec S32x128x4 32) (h1 : InRange x1)
    (b : Fin 32) (n : Fin 128) (d : Fin 768) :
    val_main_v13 (F := Ideal) x0 x1 x2 (ix3 b n d)
      = ∑ l : Fin 4, x0 (ix3 b (pos (x1 (ix3 b n l))) d) * wR (x2 (ix3 b n l)) := by
  rw [val_main_v13_apply, val_main_cst_apply]
  refine (congrArg (· + _) Ideal.ofBits_zero_f32).trans ?_
  rw [zero_add]
  refine Finset.sum_congr rfl fun l _ => ?_
  have e : idx_main_v13 (ix3 b n d) l = ix4 b n l d :=
    funext fun a => Fin.ext (by match a with | ⟨0, _⟩ => rfl | ⟨1, _⟩ => rfl | ⟨2, _⟩ => rfl | ⟨3, _⟩ => rfl)
  rw [e, val_main_v12_apply, v3_entry x0 x1 h1, v11_entry]; rfl

/-- The masked mean of span (b, n) over column d. -/
theorem mean_node (x0 : FVec Ideal S32x512x768 .f32) (x1 x2 : IVec S32x128x4 32) (h1 : InRange x1) (h2 : Mask01 x2)
    (b : Fin 32) (n : Fin 128) (d : Fin 768) :
    val_main_v15 (F := Ideal) x0 x1 x2 (ix3 b n d)
      = spanMean (fun s => x0 (ix3 b s d)) (fun l => x1 (ix3 b n l)) (fun l => x2 (ix3 b n l)) := by
  rw [val_main_v15_apply, v13_entry x0 x1 x2 h1, v14_entry x2 h2]; rfl

/-- One entry of the node result. -/
theorem node_entry (x0 : FVec Ideal S32x512x768 .f32) (x1 x2 : IVec S32x128x4 32) (x5 : FVec Ideal S18x768 .f32)
    (x6 : FVec Ideal S18 .f32) (h1 : InRange x1) (h2 : Mask01 x2) (b : Fin 32) (n : Fin 128) (k : Fin 18) :
    val_main_v43 (F := Ideal) x0 x1 x2 x5 x6 (ix3 b n k) = nodeAt x0 x1 x2 x5 x6 b n k := by
  rw [val_main_v43_apply, val_main_v42_apply, val_main_cst_4_apply, val_main_v41_apply, val_main_v36_apply,
    val_main_v35_apply, val_main_v34_apply, val_main_v33_apply]
  have eb : idx_main_v34 (idx_main_v35 (ix3 b n k)) = ix1 k :=
    funext fun a => Fin.ext (by match a with | ⟨0, _⟩ => rfl)
  have es : ∀ d : Fin 768,
      val_main_v15 (F := Ideal) x0 x1 x2 (lidx_main_v33 (ix3 b n k) d) * x5 (ridx_main_v33 (ix3 b n k) d)
        = spanMean (fun s => x0 (ix3 b s d)) (fun l => x1 (ix3 b n l)) (fun l => x2 (ix3 b n l)) * x5 (ix2 k d) := by
    intro d
    have el : lidx_main_v33 (ix3 b n k) d = ix3 b n d :=
      funext fun a => Fin.ext (by match a with | ⟨0, _⟩ => rfl | ⟨1, _⟩ => rfl | ⟨2, _⟩ => rfl)
    have er : ridx_main_v33 (ix3 b n k) d = ix2 k d :=
      funext fun a => Fin.ext (by match a with | ⟨0, _⟩ => rfl | ⟨1, _⟩ => rfl)
    rw [el, er, mean_node x0 x1 x2 h1 h2]
  rw [eb, Finset.sum_congr rfl (fun d _ => es d)]
  rfl

/-- THE NODE RESULT. -/
theorem node_eq (x0 : FVec Ideal S32x512x768 .f32) (x1 x2 : IVec S32x128x4 32) (x5 : FVec Ideal S18x768 .f32)
    (x6 : FVec Ideal S18 .f32) (h1 : InRange x1) (h2 : Mask01 x2) :
    val_main_v43 (F := Ideal) x0 x1 x2 x5 x6 = nodeG x0 x1 x2 x5 x6 := by
  funext i
  obtain ⟨b, n, k, rfl⟩ : ∃ (b : Fin 32) (n : Fin 128) (k : Fin 18), i = ix3 b n k := ⟨i 0, i 1, i 2, eq_ix3 i⟩
  exact node_entry x0 x1 x2 x5 x6 h1 h2 b n k

/-! ## The edge side, one stage at a time -/

/-- The reshape [32, 1024, 768] → [32, 128, 2, 4, 768] reads row e·8 + p·4 + l of the gathered rows. -/
theorem idx_v19_eq (b : Fin 32) (e : Fin 128) (p : Fin 2) (l : Fin 4) (d : Fin 768) :
    idx_main_v19 (ix5 b e p l d) = ix3 b (⟨e.val * 8 + p.val * 4 + l.val, by omega⟩ : Fin 1024) d := by
  have hb := b.isLt; have he := e.isLt; have hp := p.isLt; have hl := l.isLt; have hd := d.isLt
  funext a
  apply Fin.ext
  match a with
  | ⟨0, _⟩ =>
    show ((((b.val * 128 + e.val) * 2 + p.val) * 4 + l.val) * 768 + d.val) / 786432 = b.val; omega
  | ⟨1, _⟩ =>
    show ((((b.val * 128 + e.val) * 2 + p.val) * 4 + l.val) * 768 + d.val) / 768 % 1024 = e.val * 8 + p.val * 4 + l.val
    omega
  | ⟨2, _⟩ =>
    show ((((b.val * 128 + e.val) * 2 + p.val) * 4 + l.val) * 768 + d.val) % 768 = d.val; omega

/-- Slot l of end p of edge (b, e), column d, of the gathered rows: the hidden row at the position the index word names. -/
theorem v19_entry (x0 : FVec Ideal S32x512x768 .f32) (x3 : IVec S32x128x2x4 32) (h3 : InRange x3)
    (b : Fin 32) (e : Fin 128) (p : Fin 2) (l : Fin 4) (d : Fin 768) :
    val_main_v19 (F := Ideal) x0 x3 (ix5 b e p l d) = x0 (ix3 b (pos (x3 (ix4 b e p l))) d) := by
  rw [val_main_v19_apply, idx_v19_eq]
  refine (take_edge x0 x3 h3 b _ d).trans ?_
  have he := e.isLt; have hp := p.isLt; have hl := l.isLt
  refine congrArg (fun q => x0 (ix3 b (pos (x3 q)) d)) ?_
  have e1 : (⟨(e.val * 8 + p.val * 4 + l.val) / 8, by omega⟩ : Fin 128) = e := Fin.ext (by show _ / 8 = e.val; omega)
  have e2 : (⟨(e.val * 8 + p.val * 4 + l.val) / 4 % 2, Nat.mod_lt _ (by decide)⟩ : Fin 2) = p :=
    Fin.ext (by show _ / 4 % 2 = p.val; omega)
  have e3 : (⟨(e.val * 8 + p.val * 4 + l.val) % 4, Nat.mod_lt _ (by decide)⟩ : Fin 4) = l :=
    Fin.ext (by show _ % 4 = l.val; omega)
  exact (congrArg (fun u : Fin 128 => ix4 b u _ _) e1).trans
    ((congrArg (fun v : Fin 2 => ix4 b e v _) e2).trans (congrArg (fun w : Fin 4 => ix4 b e p w) e3))

/-- The mask of slot l of end p of edge (b, e), as a float, at any column. -/
theorem v27_entry (x4 : IVec S32x128x2x4 32) (b : Fin 32) (e : Fin 128) (p : Fin 2) (l : Fin 4) (d : Fin 768) :
    val_main_v27 (F := Ideal) x4 (ix5 b e p l d) = wR (x4 (ix4 b e p l)) := by
  rw [val_main_v27_apply, val_main_v21_apply, val_main_v20_apply]
  have eq : idx_main_v21 (idx_main_v27 (ix5 b e p l d)) = ix4 b e p l :=
    funext fun a => Fin.ext (by match a with | ⟨0, _⟩ => rfl | ⟨1, _⟩ => rfl | ⟨2, _⟩ => rfl | ⟨3, _⟩ => rfl)
  rw [eq]; rfl

/-- The count of end p of edge (b, e), at any column. -/
theorem v30_entry (x4 : IVec S32x128x2x4 32) (h4 : Mask01 x4) (b : Fin 32) (e : Fin 128) (p : Fin 2) (d : Fin 768) :
    val_main_v30 (F := Ideal) x4 (ix4 b e p d) = max (∑ l : Fin 4, wR (x4 (ix4 b e p l))) 1 := by
  rw [val_main_v30_apply, val_main_v26_apply]
  have eq : idx_main_v26 (idx_main_v30 (ix4 b e p d)) = ix3 b e p :=
    funext fun a => Fin.ext (by match a with | ⟨0, _⟩ => rfl | ⟨1, _⟩ => rfl | ⟨2, _⟩ => rfl)
  rw [eq]; exact cnt_edge x4 h4 b e p

/-- The masked sum of end p of edge (b, e) over column d. -/
theorem v29_entry (x0 : FVec Ideal S32x512x768 .f32) (x3 x4 : IVec S32x128x2x4 32) (h3 : InRange x3)
    (b : Fin 32) (e : Fin 128) (p : Fin 2) (d : Fin 768) :
    val_main_v29 (F := Ideal) x0 x3 x4 (ix4 b e p d)
      = ∑ l : Fin 4, x0 (ix3 b (pos (x3 (ix4 b e p l))) d) * wR (x4 (ix4 b e p l)) := by
  rw [val_main_v29_apply, val_main_cst_3_apply]
  refine (congrArg (· + _) Ideal.ofBits_zero_f32).trans ?_
  rw [zero_add]
  refine Finset.sum_congr rfl fun l _ => ?_
  have eq : idx_main_v29 (ix4 b e p d) l = ix5 b e p l d :=
    funext fun a => Fin.ext (by
      match a with | ⟨0, _⟩ => rfl | ⟨1, _⟩ => rfl | ⟨2, _⟩ => rfl | ⟨3, _⟩ => rfl | ⟨4, _⟩ => rfl)
  rw [eq, val_main_v28_apply, v19_entry x0 x3 h3, v27_entry]; rfl

/-- The masked mean of end p of edge (b, e) over column d. -/
theorem mean_edge (x0 : FVec Ideal S32x512x768 .f32) (x3 x4 : IVec S32x128x2x4 32) (h3 : InRange x3) (h4 : Mask01 x4)
    (b : Fin 32) (e : Fin 128) (p : Fin 2) (d : Fin 768) :
    val_main_v31 (F := Ideal) x0 x3 x4 (ix4 b e p d)
      = spanMean (fun s => x0 (ix3 b s d)) (fun l => x3 (ix4 b e p l)) (fun l => x4 (ix4 b e p l)) := by
  rw [val_main_v31_apply, v29_entry x0 x3 x4 h3, v30_entry x4 h4]; rfl

/-- The reshape [32, 128, 2, 768] → [32, 128, 1536] reads end j / 768, column j % 768. -/
theorem idx_v32_eq (b : Fin 32) (e : Fin 128) (j : Fin 1536) :
    idx_main_v32 (ix3 b e j)
      = ix4 b e (⟨j.val / 768, by have := j.isLt; omega⟩ : Fin 2) (⟨j.val % 768, Nat.mod_lt _ (by decide)⟩ : Fin 768) := by
  have hb := b.isLt; have he := e.isLt; have hj := j.isLt
  funext a
  apply Fin.ext
  match a with
  | ⟨0, _⟩ => show ((b.val * 128 + e.val) * 1536 + j.val) / 196608 = b.val; omega
  | ⟨1, _⟩ => show ((b.val * 128 + e.val) * 1536 + j.val) / 1536 % 128 = e.val; omega
  | ⟨2, _⟩ => show ((b.val * 128 + e.val) * 1536 + j.val) / 768 % 2 = j.val / 768; omega
  | ⟨3, _⟩ => show ((b.val * 128 + e.val) * 1536 + j.val) % 768 = j.val % 768; omega

/-- Column j of the feature row of edge (b, e). -/
theorem feat_edge (x0 : FVec Ideal S32x512x768 .f32) (x3 x4 : IVec S32x128x2x4 32) (h3 : InRange x3) (h4 : Mask01 x4)
    (b : Fin 32) (e : Fin 128) (j : Fin 1536) :
    val_main_v32 (F := Ideal) x0 x3 x4 (ix3 b e j) = edgeFeat x0 x3 x4 b e j := by
  rw [val_main_v32_apply, idx_v32_eq, mean_edge x0 x3 x4 h3 h4]; rfl

/-- One entry of the edge result. -/
theorem edge_entry (x0 : FVec Ideal S32x512x768 .f32) (x3 x4 : IVec S32x128x2x4 32) (x7 : FVec Ideal S14x1536 .f32)
    (x8 : FVec Ideal S14 .f32) (h3 : InRange x3) (h4 : Mask01 x4) (b : Fin 32) (e : Fin 128) (k : Fin 14) :
    val_main_v46 (F := Ideal) x0 x3 x4 x7 x8 (ix3 b e k) = edgeAt x0 x3 x4 x7 x8 b e k := by
  rw [val_main_v46_apply, val_main_v45_apply, val_main_cst_5_apply, val_main_v44_apply, val_main_v40_apply,
    val_main_v39_apply, val_main_v38_apply, val_main_v37_apply]
  have eb : idx_main_v38 (idx_main_v39 (ix3 b e k)) = ix1 k :=
    funext fun a => Fin.ext (by match a with | ⟨0, _⟩ => rfl)
  have es : ∀ j : Fin 1536,
      val_main_v32 (F := Ideal) x0 x3 x4 (lidx_main_v37 (ix3 b e k) j) * x7 (ridx_main_v37 (ix3 b e k) j)
        = edgeFeat x0 x3 x4 b e j * x7 (ix2 k j) := by
    intro j
    have el : lidx_main_v37 (ix3 b e k) j = ix3 b e j :=
      funext fun a => Fin.ext (by match a with | ⟨0, _⟩ => rfl | ⟨1, _⟩ => rfl | ⟨2, _⟩ => rfl)
    have er : ridx_main_v37 (ix3 b e k) j = ix2 k j :=
      funext fun a => Fin.ext (by match a with | ⟨0, _⟩ => rfl | ⟨1, _⟩ => rfl)
    rw [el, er, feat_edge x0 x3 x4 h3 h4]
  rw [eb, Finset.sum_congr rfl (fun j _ => es j)]
  rfl

/-- THE EDGE RESULT. -/
theorem edge_eq (x0 : FVec Ideal S32x512x768 .f32) (x3 x4 : IVec S32x128x2x4 32) (x7 : FVec Ideal S14x1536 .f32)
    (x8 : FVec Ideal S14 .f32) (h3 : InRange x3) (h4 : Mask01 x4) :
    val_main_v46 (F := Ideal) x0 x3 x4 x7 x8 = edgeG x0 x3 x4 x7 x8 := by
  funext i
  obtain ⟨b, e, k, rfl⟩ : ∃ (b : Fin 32) (e : Fin 128) (k : Fin 14), i = ix3 b e k := ⟨i 0, i 1, i 2, eq_ix3 i⟩
  exact edge_entry x0 x3 x4 x7 x8 h3 h4 b e k

end Cert.ReferenceIdeal.SpanRef

end
-- ==== Proof.lean ====
/-
  Span pooling with two linear heads: the kernel against its jnp reference, over the extended reals.

  For every batch b the program pools 128 node spans and 128 × 2 edge spans out of the [512, 768] hidden states. A span is four
  positions with four 0/1 masks; its feature is the masked mean of the four rows. Node features go through a [18, 768] linear
  map, a bias, tanh and a factor 5; an edge's head and tail features, side by side, through a [14, 1536] one.

  The kernel takes the mean by a matrix product: it builds, per span, the row  w(s) = ( ∑ₗ [s = iₗ] · μₗ ) / max(∑ₗ μₗ, 1)
  over the 512 positions and multiplies it into the hidden block. The reference gathers the four rows, weighs them by the
  masks, adds them and divides by the count. The two agree because  ∑ₛ w(s) · h(s) = ( ∑ₗ h(iₗ) · μₗ ) / max(∑ₗ μₗ, 1)
  for real h — each indicator picks its row, and the division moves out of a sum of real numbers — which is where the
  hidden states' finiteness is used. Positions must lie in [0, 512): outside it the reference wraps or fills, while no
  indicator fires. Masks must be 0 or 1: the reference counts them in a word sum, the kernel in a sum of reals.
  Everything after the feature is the same expression on both sides.

  The frames of the two kernel programs are the generated ones; the reference's frame is its run with the results dropped.
  No operation was rewritten by the idealization, so its soundness conjunct is `True`.
-/
import proofs.«429343_j87797721465415_1_alg».proof.Defs
import proofs.«429343_j87797721465415_1_alg».proof.Proof.Gen.Kernel
import proofs.«429343_j87797721465415_1_alg».proof.Proof.Gen.Kernel.Frame
import proofs.«429343_j87797721465415_1_alg».proof.Proof.Gen.KernelIdeal
import proofs.«429343_j87797721465415_1_alg».proof.Proof.Gen.KernelIdeal.Frame
import proofs.«429343_j87797721465415_1_alg».proof.Proof.Gen.KernelIdeal.Value
import proofs.«429343_j87797721465415_1_alg».proof.Proof.Gen.ReferenceIdeal
import proofs.«429343_j87797721465415_1_alg».proof.Proof.Gen.Pre_finite_inputs
import proofs.«429343_j87797721465415_1_alg».proof.Proof.RefRunP
import proofs.«429343_j87797721465415_1_alg».proof.Proof.RefReadP
import proofs.«429343_j87797721465415_1_alg».proof.Proof.PreDecode
import proofs.«429343_j87797721465415_1_alg».proof.Proof.KArray
import proofs.«429343_j87797721465415_1_alg».proof.Proof.RefValue
import Idealize.ShloMosaic.Adequacy
import Idealize.ShloMosaic.Init

noncomputable section

namespace Cert.Proof

open Idealize.ShloMosaic Idealize.ShloMosaic.TcCoe Idealize.SL.Sem Cert.Span

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the node scores and the edge scores of the span-pooling heads: the kernel's result arrays block by
    block, the reference's stage by stage, at arguments that agree. -/
theorem algebraic : Cert.algebraic_KernelIdeal_ReferenceIdeal := by
  intro m ρ m' ρ' hpre hagree
  have hyp := fun c => Cert.PreDecode.decode _ _ _ _ _ _ _ _ _ (hpre c)
  refine ⟨_, _, Cert.KernelIdeal.SpanValue.run m ρ hyp, ?_⟩
  refine (θ_run Cert.ReferenceIdeal.defs _ _).mono (fun _ h c => ?_) (Cert.ReferenceIdeal.ValueP.run (F := Ideal) m' ρ')
  obtain ⟨-, h1, h2, h3, h4⟩ := hyp c
  obtain ⟨a0, a1, a2, a3, a4, a5, a6, a7, a8⟩ := hagree c
  obtain ⟨e43, e46, keep⟩ := h c
  refine ⟨?_, ?_, keep⟩
  · rw [e43, Cert.ReferenceIdeal.ReadP.val_main_v43_eq, Cert.ReferenceIdeal.SpanRef.node_eq _ _ _ _ _ (a1 ▸ h1) (a2 ▸ h2),
      a0, a1, a2, a5, a6]
  · rw [e46, Cert.ReferenceIdeal.ReadP.val_main_v46_eq, Cert.ReferenceIdeal.SpanRef.edge_eq _ _ _ _ _ (a3 ▸ h3) (a4 ▸ h4),
      a0, a3, a4, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
